-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2 : Shape := ⟨2, ![2048, 2]⟩
abbrev S50257x1024 : Shape := ⟨2, ![50257, 1024]⟩
abbrev S3072x1024 : Shape := ⟨2, ![3072, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x50257 : S_.BroadcastsInDim S1024x50257 (![] : Fin 0 → Fin S1024x50257.rank)
  reducesTo_S1024x50257_S_d0_1 : S1024x50257.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg5 : FVec F S1024 .f32) (main_arg6 : FVec F S1024x50257 .f32) (main_arg7 : FVec F S50257 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x50257 .f32 := Host.absf main_arg6
  let main_cst_8 : FVec F S_ .f32 := constant S_ .f32 0x7F800000#32
  let main_v25 : FVec F S1024x50257 .f32 := broadcastInDim S1024x50257 ![] bcast_S_S1024x50257 main_cst_8
  let main_v26 : IVec S1024x50257 1 := cmpf .olt main_v24 main_v25
  let main_c_9 : IVec S_ 1 := constantI S_ 1 1#1
  let main_v27 : IVec S_ 1 := (fun x v => Host.reduce IntOp.andi x v reducesTo_S1024x50257_S_d0_1 h_S_) main_v26 main_c_9
  let main_v28 : IVec S_ 1 := andi main_v23 main_v27
  let main_v29 : FVec F S50257 .f32 := Host.absf main_arg7
  let main_cst_10 : FVec F S_ .f32 := constant S_ .f32 0x7F800000#32
  let main_v30 : FVec F S50257 .f32 := broadcastInDim S50257 ![] bcast_S_S50257 main_cst_10
  let main_v31 : IVec S50257 1 := cmpf .olt main_v29 main_v30
  let main_c_11 : IVec S_ 1 := constantI S_ 1 1#1
  let main_v32 : IVec S_ 1 := (fun x v => Host.reduce IntOp.andi x v reducesTo_S50257_S_d0 h_S_) main_v31 main_c_11
  let main_v33 : IVec S_ 1 := andi main_v28 main_v32
  main_v33

def fn {F : FTy → Type} [FloatOps F] (main_arg0 : IVec S2048x2 32) (main_arg1 : FVec F S50257x1024 .f32) (main_arg2 : FVec F S3072x1024 .f32) (main_arg3 : FVec F S1024 .f32) (main_arg4 : FVec F S1024x1024 .f32) (main_arg5 : FVec F S1024 .f32) (main_arg6 : FVec F S1024x50257 .f32) (main_arg7 : FVec F S50257 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S2048x2 : Shape := ⟨2, ![2048, 2]⟩
abbrev S50257x1024 : Shape := ⟨2, ![50257, 1024]⟩
abbrev S3072x1024 : Shape := ⟨2, ![3072, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S2x2 : Shape := ⟨2, ![2, 2]⟩
abbrev S2050x2 : Shape := ⟨2, ![2050, 2]⟩
abbrev S2048x2x1 : Shape := ⟨3, ![2048, 2, 1]⟩
abbrev S2048x2x3 : Shape := ⟨3, ![2048, 2, 3]⟩
abbrev S2048x2x3x1 : Shape := ⟨4, ![2048, 2, 3, 1]⟩
abbrev S2048x2x3x1024 : Shape := ⟨4, ![2048, 2, 3, 1024]⟩
abbrev S4096x3072 : Shape := ⟨2, ![4096, 3072]⟩
abbrev S1x1024 : Shape := ⟨2, ![1, 1024]⟩
abbrev S4096x1024 : Shape := ⟨2, ![4096, 1024]⟩
abbrev S256x3072 : Shape := ⟨2, ![256, 3072]⟩
abbrev S256x1024 : Shape := ⟨2, ![256, 1024]⟩
abbrev S1024x51200 : Shape := ⟨2, ![1024, 51200]⟩
abbrev S51200 : Shape := ⟨1, ![51200]⟩
abbrev S1x51200 : Shape := ⟨2, ![1, 51200]⟩
abbrev S4096x51200 : Shape := ⟨2, ![4096, 51200]⟩
abbrev S512x1024 : Shape := ⟨2, ![512, 1024]⟩
abbrev S1024x2048 : Shape := ⟨2, ![1024, 2048]⟩
abbrev S1x2048 : Shape := ⟨2, ![1, 2048]⟩
abbrev S512x2048 : Shape := ⟨2, ![512, 2048]⟩
abbrev S4096x50257 : Shape := ⟨2, ![4096, 50257]⟩
abbrev S2048x2x50257 : Shape := ⟨3, ![2048, 2, 50257]⟩

abbrev nBuf : Space → Nat
  | .hbm => 45
  | .vmem => 16
  | .smem => 0
  | _ => 0

abbrev bufTy : (tb : Table) → Fin (tcTables nBuf tb) → BufTy
  | .hbm, ⟨0, _⟩ => ⟨S2048x2, .i32⟩
  | .hbm, ⟨1, _⟩ => ⟨S50257x1024, .f32⟩
  | .hbm, ⟨2, _⟩ => ⟨S3072x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x50257, .f32⟩
  | .hbm, ⟨7, _⟩ => ⟨S50257, .f32⟩
  | .hbm, ⟨8, _⟩ => ⟨S_, .i32⟩
  | .hbm, ⟨9, _⟩ => ⟨S2x2, .i32⟩
  | .hbm, ⟨10, _⟩ => ⟨S2050x2, .i32⟩
  | .hbm, ⟨11, _⟩ => ⟨S2048x2, .i32⟩
  | .hbm, ⟨12, _⟩ => ⟨S2048x2, .i32⟩
  | .hbm, ⟨13, _⟩ => ⟨S2048x2, .i32⟩
  | .hbm, ⟨14, _⟩ => ⟨S2048x2x1, .i32⟩
  | .hbm, ⟨15, _⟩ => ⟨S2048x2x1, .i32⟩
  | .hbm, ⟨16, _⟩ => ⟨S2048x2x1, .i32⟩
  | .hbm, ⟨17, _⟩ => ⟨S2048x2x3, .i32⟩
  | .hbm, ⟨18, _⟩ => ⟨S_, .i32⟩
  | .hbm, ⟨19, _⟩ => ⟨S2048x2x3, .i32⟩
  | .hbm, ⟨20, _⟩ => ⟨S2048x2x3, .i1⟩
  | .hbm, ⟨21, _⟩ => ⟨S_, .i32⟩
  | .hbm, ⟨22, _⟩ => ⟨S2048x2x3, .i32⟩
  | .hbm, ⟨23, _⟩ => ⟨S2048x2x3, .i32⟩
  | .hbm, ⟨24, _⟩ => ⟨S2048x2x3, .i32⟩
  | .hbm, ⟨25, _⟩ => ⟨S2048x2x3x1, .i32⟩
  | .hbm, ⟨26, _⟩ => ⟨S2048x2x3x1024, .f32⟩
  | .hbm, ⟨27, _⟩ => ⟨S4096x3072, .f32⟩
  | .hbm, ⟨28, _⟩ => ⟨S4096x3072, .bf16⟩
  | .hbm, ⟨29, _⟩ => ⟨S3072x1024, .bf16⟩
  | .hbm, ⟨30, _⟩ => ⟨S1024x1024, .bf16⟩
  | .hbm, ⟨31, _⟩ => ⟨S1024x50257, .bf16⟩
  | .hbm, ⟨32, _⟩ => ⟨S1x1024, .f32⟩
  | .hbm, ⟨33, _⟩ => ⟨S1x1024, .f32⟩
  | .hbm, ⟨34, _⟩ => ⟨S4096x1024, .bf16⟩
  | .hbm, ⟨35, _⟩ => ⟨S_, .i32⟩
  | .hbm, ⟨36, _⟩ => ⟨S_, .bf16⟩
  | .hbm, ⟨37, _⟩ => ⟨S1024x51200, .bf16⟩
  | .hbm, ⟨38, _⟩ => ⟨S_, .i32⟩
  | .hbm, ⟨39, _⟩ => ⟨S_, .f32⟩
  | .hbm, ⟨40, _⟩ => ⟨S51200, .f32⟩
  | .hbm, ⟨41, _⟩ => ⟨S1x51200, .f32⟩
  | .hbm, ⟨42, _⟩ => ⟨S4096x51200, .f32⟩
  | .hbm, ⟨43, _⟩ => ⟨S4096x50257, .f32⟩
  | .hbm, ⟨44, _⟩ => ⟨S2048x2x50257, .f32⟩
  | .local _ .vmem, ⟨0, _⟩ => ⟨S256x3072, .bf16⟩
  | .local _ .vmem, ⟨1, _⟩ => ⟨S256x3072, .bf16⟩
  | .local _ .vmem, ⟨2, _⟩ => ⟨S3072x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_call0_v0 : Ref sig .tc := ⟨.hbm, 36, rfl⟩
abbrev main_v24 : Ref sig .tc := ⟨.hbm, 37, rfl⟩
abbrev main_c_3 : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![25, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2x2 : S_.BroadcastsInDim S2x2 (![] : Fin 0 → Fin S2x2.rank)
  concatenates_S2x2_S2048x2_S2050x2_d0 : Shape.Concatenates [S2x2, S2048x2] S2050x2 0
  slices_S2050x2_S2048x2_0_0 : S2050x2.Slices ![0, 0] S2048x2
  slices_S2050x2_S2048x2_1_0 : S2050x2.Slices ![1, 0] S2048x2
  slices_S2050x2_S2048x2_2_0 : S2050x2.Slices ![2, 0] S2048x2
  bcast_S2048x2_S2048x2x1_0_1 : S2048x2.BroadcastsInDim S2048x2x1 (![0, 1] : Fin 2 → Fin S2048x2x1.rank)
  concatenates_S2048x2x1_S2048x2x1_S2048x2x1_S2048x2x3_d2 : Shape.Concatenates [S2048x2x1, S2048x2x1, S2048x2x1] S2048x2x3 2
  bcast_S_S2048x2x3 : S_.BroadcastsInDim S2048x2x3 (![] : Fin 0 → Fin S2048x2x3.rank)
  bcast_S2048x2x3_S2048x2x3x1_0_1_2 : S2048x2x3.BroadcastsInDim S2048x2x3x1 (![0, 1, 2] : Fin 3 → Fin S2048x2x3x1.rank)
  shapeCasts_S2048x2x3x1024_S4096x3072 : S2048x2x3x1024.ShapeCasts S4096x3072
  bitsLt_bf16_f32 : FTy.bits .bf16 < FTy.bits .f32
  shapeCasts_S1024_S1x1024 : S1024.ShapeCasts S1x1024
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  pads_S1024x50257_S1024x51200_000_09430 : S1024x50257.Pads (![0, 0] : Fin 2 → Nat) ![0, 943] ![0, 0] S1024x51200
  h_S_ : 0 < S_.numel
  pads_S50257_S51200_09430 : S50257.Pads (![0] : Fin 1 → Nat) ![943] ![0] S51200
  shapeCasts_S51200_S1x51200 : S51200.ShapeCasts S1x51200
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  slices_S4096x51200_S4096x50257_0_0 : S4096x51200.Slices ![0, 0] S4096x50257
  shapeCasts_S4096x50257_S2048x2x50257 : S4096x50257.ShapeCasts S2048x2x50257
  gather_S50257x1024_S2048x2x3x1_S2048x2x3x1024_3_0_n_n_0_3_11024_wf : GatherDims.WF S50257x1024 S2048x2x3x1 S2048x2x3x1024 [3] [0] [] [0] [] 3 ![1, 1024]
  dot_S256x3072_S3072x1024_S256x1024_1_0_0_1_n_n_wf : DotDims.WF S256x3072 S3072x1024 S256x1024 [1] [0] [0] [1] [] []
  dot_S256x1024_S1024x1024_S256x1024_1_0_0_1_n_n_wf : DotDims.WF S256x1024 S1024x1024 S256x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .bf16 = 32 ∨ (Rect.block (s := S4096x3072) S256x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .bf16 = 32 ∨ (Rect.block (s := S4096x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x51200.size a
  hwx1_1 : ∀ i : grid1.Coords, EltTy.bits .bf16 = 32 ∨ (Rect.block (s := S1024x51200) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x51200.size a
  hwx1_2 : ∀ i : grid1.Coords, EltTy.bits .f32 = 32 ∨ (Rect.block (s := S1x51200) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x51200.size a
  hwx1_3 : ∀ i : grid1.Coords, EltTy.bits .f32 = 32 ∨ (Rect.block (s := S4096x51200) S512x2048.size (cc1_transform_3 i) (hinb1_3 i)).WholeWords (EltTy.packing .f32)

variable [Facts₀]

def gather_S50257x1024_S2048x2x3x1_S2048x2x3x1024_3_0_n_n_0_3_11024 : GatherDims S50257x1024 S2048x2x3x1 S2048x2x3x1024 where
  offsetDims := [3]
  collapsedSliceDims := [0]
  operandBatchingDims := []
  startIndicesBatchingDims := []
  startIndexMap := [0]
  indexVectorDim := 3
  sliceSizes := ![1, 1024]
  wf := gather_S50257x1024_S2048x2x3x1_S2048x2x3x1024_3_0_n_n_0_3_11024_wf
def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v17) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x2 : Shape := ⟨2, ![2048, 2]⟩
abbrev S50257x1024 : Shape := ⟨2, ![50257, 1024]⟩
abbrev S3072x1024 : Shape := ⟨2, ![3072, 1024]⟩
abbrev S1024 : Shape := ⟨1, ![1024]⟩
abbrev S1024x1024 : Shape := ⟨2, ![1024, 1024]⟩
abbrev S1024x50257 : Shape := ⟨2, ![1024, 50257]⟩
abbrev S50257 : Shape := ⟨1, ![50257]⟩
abbrev S_ : Shape := ⟨0, ![]⟩
abbrev S2x2 : Shape := ⟨2, ![2, 2]⟩
abbrev S2050x2 : Shape := ⟨2, ![2050, 2]⟩
abbrev S2048x2x1 : Shape := ⟨3, ![2048, 2, 1]⟩
abbrev S2048x2x3 : Shape := ⟨3, ![2048, 2, 3]⟩
abbrev S2048x2x3x1 : Shape := ⟨4, ![2048, 2, 3, 1]⟩
abbrev S2048x2x3x1024 : Shape := ⟨4, ![2048, 2, 3, 1024]⟩
abbrev S2048x2x3072 : Shape := ⟨3, ![2048, 2, 3072]⟩
abbrev S2048x2x1024 : Shape := ⟨3, ![2048, 2, 1024]⟩
abbrev S1x1x1024 : Shape := ⟨3, ![1, 1, 1024]⟩
abbrev S2048x2x50257 : Shape := ⟨3, ![2048, 2, 50257]⟩
abbrev S1x1x50257 : Shape := ⟨3, ![1, 1, 50257]⟩

abbrev nBuf : Space → Nat
  | .hbm => 58
  | .vmem => 0
  | .smem => 0
  | _ => 0

abbrev bufTy : (tb : Table) → Fin (tcTables nBuf tb) → BufTy
  | .hbm, ⟨0, _⟩ => ⟨S2048x2, .i32⟩
  | .hbm, ⟨1, _⟩ => ⟨S50257x1024, .f32⟩
  | .hbm, ⟨2, _⟩ => ⟨S3072x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x50257, .f32⟩
  | .hbm, ⟨7, _⟩ => ⟨S50257, .f32⟩
  | .hbm, ⟨8, _⟩ => ⟨S_, .i32⟩
  | .hbm, ⟨9, _⟩ => ⟨S2x2, .i32⟩
  | .hbm, ⟨10, _⟩ => ⟨S2050x2, .i32⟩
  | .hbm, ⟨11, _⟩ => ⟨S2048x2, .i32⟩
  | .hbm, ⟨12, _⟩ => ⟨S2048x2, .i32⟩
  | .hbm, ⟨13, _⟩ => ⟨S2048x2, .i32⟩
  | .hbm, ⟨14, _⟩ => ⟨S2048x2x1, .i32⟩
  | .hbm, ⟨15, _⟩ => ⟨S2048x2x1, .i32⟩
  | .hbm, ⟨16, _⟩ => ⟨S2048x2x1, .i32⟩
  | .hbm, ⟨17, _⟩ => ⟨S2048x2x3, .i32⟩
  | .hbm, ⟨18, _⟩ => ⟨S_, .i32⟩
  | .hbm, ⟨19, _⟩ => ⟨S2048x2x3, .i32⟩
  | .hbm, ⟨20, _⟩ => ⟨S2048x2x3, .i1⟩
  | .hbm, ⟨21, _⟩ => ⟨S_, .i32⟩
  | .hbm, ⟨22, _⟩ => ⟨S2048x2x3, .i32⟩
  | .hbm, ⟨23, _⟩ => ⟨S2048x2x3, .i32⟩
  | .hbm, ⟨24, _⟩ => ⟨S2048x2x3, .i32⟩
  | .hbm, ⟨25, _⟩ => ⟨S2048x2x3x1, .i32⟩
  | .hbm, ⟨26, _⟩ => ⟨S2048x2x3x1024, .f32⟩
  | .hbm, ⟨27, _⟩ => ⟨S2048x2x3072, .f32⟩
  | .hbm, ⟨28, _⟩ => ⟨S2048x2x1024, .f32⟩
  | .hbm, ⟨29, _⟩ => ⟨S1x1x1024, .f32⟩
  | .hbm, ⟨30, _⟩ => ⟨S2048x2x1024, .f32⟩
  | .hbm, ⟨31, _⟩ => ⟨S2048x2x1024, .f32⟩
  | .hbm, ⟨32, _⟩ => ⟨S2048x2x1024, .f32⟩
  | .hbm, ⟨33, _⟩ => ⟨S2048x2x1024, .f32⟩
  | .hbm, ⟨34, _⟩ => ⟨S_, .f32⟩
  | .hbm, ⟨35, _⟩ => ⟨S2048x2x1024, .f32⟩
  | .hbm, ⟨36, _⟩ => ⟨S2048x2x1024, .f32⟩
  | .hbm, ⟨37, _⟩ => ⟨S_, .f32⟩
  | .hbm, ⟨38, _⟩ => ⟨S2048x2x1024, .f32⟩
  | .hbm, ⟨39, _⟩ => ⟨S2048x2x1024, .f32⟩
  | .hbm, ⟨40, _⟩ => ⟨S2048x2x1024, .f32⟩
  | .hbm, ⟨41, _⟩ => ⟨S2048x2x1024, .f32⟩
  | .hbm, ⟨42, _⟩ => ⟨S1x1x1024, .f32⟩
  | .hbm, ⟨43, _⟩ => ⟨S2048x2x1024, .f32⟩
  | .hbm, ⟨44, _⟩ => ⟨S2048x2x1024, .f32⟩
  | .hbm, ⟨45, _⟩ => ⟨S2048x2x1024, .f32⟩
  | .hbm, ⟨46, _⟩ => ⟨S2048x2x1024, .f32⟩
  | .hbm, ⟨47, _⟩ => ⟨S_, .f32⟩
  | .hbm, ⟨48, _⟩ => ⟨S2048x2x1024, .f32⟩
  | .hbm, ⟨49, _⟩ => ⟨S2048x2x1024, .f32⟩
  | .hbm, ⟨50, _⟩ => ⟨S_, .f32⟩
  | .hbm, ⟨51, _⟩ => ⟨S2048x2x1024, .f32⟩
  | .hbm, ⟨52, _⟩ => ⟨S2048x2x1024, .f32⟩
  | .hbm, ⟨53, _⟩ => ⟨S2048x2x1024, .f32⟩
  | .hbm, ⟨54, _⟩ => ⟨S2048x2x50257, .f32⟩
  | .hbm, ⟨55, _⟩ => ⟨S1x1x50257, .f32⟩
  | .hbm, ⟨56, _⟩ => ⟨S2048x2x50257, .f32⟩
  | .hbm, ⟨57, _⟩ => ⟨S2048x2x50257, .f32⟩
  | _, _ => ⟨S2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]

class Facts₀ : Prop where
  bcast_S_S2x2 : S_.BroadcastsInDim S2x2 (![] : Fin 0 → Fin S2x2.rank)
  concatenates_S2x2_S2048x2_S2050x2_d0 : Shape.Concatenates [S2x2, S2048x2] S2050x2 0
  slices_S2050x2_S2048x2_0_0 : S2050x2.Slices ![0, 0] S2048x2
  slices_S2050x2_S2048x2_1_0 : S2050x2.Slices ![1, 0] S2048x2
  slices_S2050x2_S2048x2_2_0 : S2050x2.Slices ![2, 0] S2048x2
  bcast_S2048x2_S2048x2x1_0_1 : S2048x2.BroadcastsInDim S2048x2x1 (![0, 1] : Fin 2 → Fin S2048x2x1.rank)
  concatenates_S2048x2x1_S2048x2x1_S2048x2x1_S2048x2x3_d2 : Shape.Concatenates [S2048x2x1, S2048x2x1, S2048x2x1] S2048x2x3 2
  bcast_S_S2048x2x3 : S_.BroadcastsInDim S2048x2x3 (![] : Fin 0 → Fin S2048x2x3.rank)
  bcast_S2048x2x3_S2048x2x3x1_0_1_2 : S2048x2x3.BroadcastsInDim S2048x2x3x1 (![0, 1, 2] : Fin 3 → Fin S2048x2x3x1.rank)
  shapeCasts_S2048x2x3x1024_S2048x2x3072 : S2048x2x3x1024.ShapeCasts S2048x2x3072
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  bcast_S_S2048x2x1024 : S_.BroadcastsInDim S2048x2x1024 (![] : Fin 0 → Fin S2048x2x1024.rank)
  bcast_S50257_S1x1x50257_2 : S50257.BroadcastsInDim S1x1x50257 (![2] : Fin 1 → Fin S1x1x50257.rank)
  bcast_S1x1x50257_S2048x2x50257_0_1_2 : S1x1x50257.BroadcastsInDim S2048x2x50257 (![0, 1, 2] : Fin 3 → Fin S2048x2x50257.rank)
  gather_S50257x1024_S2048x2x3x1_S2048x2x3x1024_3_0_n_n_0_3_11024_wf : GatherDims.WF S50257x1024 S2048x2x3x1 S2048x2x3x1024 [3] [0] [] [0] [] 3 ![1, 1024]
  dot_S2048x2x3072_S3072x1024_S2048x2x1024_2_0_01_1_n_n_wf : DotDims.WF S2048x2x3072 S3072x1024 S2048x2x1024 [2] [0] [0, 1] [1] [] []
  dot_S2048x2x1024_S1024x1024_S2048x2x1024_2_0_01_1_n_n_wf : DotDims.WF S2048x2x1024 S1024x1024 S2048x2x1024 [2] [0] [0, 1] [1] [] []
  dot_S2048x2x1024_S1024x50257_S2048x2x50257_2_0_01_1_n_n_wf : DotDims.WF S2048x2x1024 S1024x50257 S2048x2x50257 [2] [0] [0, 1] [1] [] []

variable [Facts₀]

def gather_S50257x1024_S2048x2x3x1_S2048x2x3x1024_3_0_n_n_0_3_11024 : GatherDims S50257x1024 S2048x2x3x1 S2048x2x3x1024 where
  offsetDims := [3]
  collapsedSliceDims := [0]
  operandBatchingDims := []
  startIndicesBatchingDims := []
  startIndexMap := [0]
  indexVectorDim := 3
  sliceSizes := ![1, 1024]
  wf := gather_S50257x1024_S2048x2x3x1_S2048x2x3x1024_3_0_n_n_0_3_11024_wf
def dot_S2048x2x3072_S3072x1024_S2048x2x1024_2_0_01_1_n_n : DotDims S2048x2x3072 S3072x1024 S2048x2x1024 where
  lhsContracting := [2]
  rhsContracting := [0]
  lhsNonContracting := [0, 1]
  rhsNonContracting := [1]
  lhsBatch := []
  rhsBatch := []
  wf := dot_S2048x2x3072_S3072x1024_S2048x2x1024_2_0_01_1_n_n_wf
def dot_S2048x2x1024_S1024x1024_S2048x2x1024_2_0_01_1_n_n : DotDims S2048x2x1024 S1024x1024 S2048x2x1024 where
  lhsContracting := [2]
  rhsContracting := [0]
  lhsNonContracting := [0, 1]
  rhsNonContracting := [1]
  lhsBatch := []
  rhsBatch := []
  wf := dot_S2048x2x1024_S1024x1024_S2048x2x1024_2_0_01_1_n_n_wf
def dot_S2048x2x1024_S1024x50257_S2048x2x50257_2_0_01_1_n_n : DotDims S2048x2x1024 S1024x50257 S2048x2x50257 where
  lhsContracting := [2]
  rhsContracting := [0]
  lhsNonContracting := [0, 1]
  rhsNonContracting := [1]
  lhsBatch := []
  rhsBatch := []
  wf := dot_S2048x2x1024_S1024x50257_S2048x2x50257_2_0_01_1_n_n_wf

class Facts : Prop extends Facts₀ where

variable [Facts]
-- ==== Proof.K.RegionA.lean ====
/-
  The first kernel region (the two hidden layers) at one grid point, for any contents `V` of the device's buffers at the
  region's entry. A point takes a block of 256 rows of the embedded input and the whole of both weight matrices and
  biases, and stores 256 rows of the second hidden layer. Stated here: what the stored block is as a function of the
  loaded blocks, that the body runs to the end leaving its inputs alone, and the pipeline's proof data built from that.
-/
import proofs.«109752_j56925496541497_1_alg».proof.Proof.Gen.Kernel.Launch
import proofs.«109752_j56925496541497_1_alg».proof.Proof.Gen.Kernel.Skeleton
import proofs.«109752_j56925496541497_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! The body reads each window whole. -/

abbrev r0_0 : Rect S256x3072 := Rect.unit (s := S256x3072) ![0, 0] S256x3072.size inb_S256x3072_S256x3072_0_0
abbrev r0_1 : Rect S3072x1024 := Rect.unit (s := S3072x1024) ![0, 0] S3072x1024.size inb_S3072x1024_S3072x1024_0_0
abbrev r0_2 : Rect S1x1024 := Rect.unit (s := S1x1024) ![0, 0] S1x1024.size inb_S1x1024_S1x1024_0_0
abbrev r0_3 : Rect S1024x1024 := Rect.unit (s := S1024x1024) ![0, 0] S1024x1024.size inb_S1024x1024_S1024x1024_0_0
abbrev r0_4 : Rect S1x1024 := Rect.unit (s := S1x1024) ![0, 0] S1x1024.size inb_S1x1024_S1x1024_0_0
abbrev r0_5 : Rect S256x1024 := Rect.unit (s := S256x1024) ![0, 0] S256x1024.size inb_S256x1024_S256x1024_0_0

/-- What the body leaves in the output window's staging buffer, from the input blocks: its one store, of the body's arithmetic on what it loaded. -/
def out0_5 (x0 : Vec F S256x3072 .bf16) (x1 : Vec F S3072x1024 .bf16) (x2 : Vec F S1x1024 .f32) (x3 : Vec F S1024x1024 .bf16) (x4 : Vec F S1x1024 .f32) : Vec F S256x1024 .bf16 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x1024 .bf16) (y : S256x1024.Idx) :
    ∃ pc ∈ ([⟨r0_5, p0⟩] : List (View.Piece (Elt F) S256x1024 .bf16)), y ∈ pc.1.set :=
  View.cover_of_tiled [⟨r0_5, p0⟩] S256x1024.size (by rfl) y

set_option maxHeartbeats 4000000 in
/-- The body, on whole staging buffers holding the input blocks and an output buffer holding anything, runs to the end: the inputs are left as they were and the output holds the stored value. -/
theorem sound_kernel0 (c : Dev nD) (E : Set ℕ) (i : grid0.Coords) (a0 : Memref sig .tc .vmem S256x3072 .bf16) (ha0 : a0.IsWhole) (a1 : Memref sig .tc .vmem S3072x1024 .bf16) (ha1 : a1.IsWhole) (a2 : Memref sig .tc .vmem S1x1024 .f32) (ha2 : a2.IsWhole) (a3 : Memref sig .tc .vmem S1024x1024 .bf16) (ha3 : a3.IsWhole) (a4 : Memref sig .tc .vmem S1x1024 .f32) (ha4 : a4.IsWhole) (a5 : Memref sig .tc .vmem S256x1024 .bf16) (ha5 : a5.IsWhole)
    (x0 : Vec F S256x3072 .bf16) (x1 : Vec F S3072x1024 .bf16) (x2 : Vec F S1x1024 .f32) (x3 : Vec F S1024x1024 .bf16) (x4 : Vec F S1x1024 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0_5 x0 x1 x2 x3 x4)) -∗ Kc ⟨⟩))
      ⊢ wp frame (wpE (defs₀ (F := F)) Variants.none c none) E (cc0__stageA_kernel i a0 ha0 a1 ha1 a2 ha2 a3 ha3 a4 ha4 a5 ha5) Kc := by
  simp only [cc0__stageA_kernel_eq_skeleton]; unfold cc0__stageA_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each input's buffer still at its block and the output's at the stored value of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.RegionB.lean ====
/-
  The second kernel region (the output projection) at one grid point, for any contents `V` of the device's buffers at
  the region's entry. A point takes 512 rows of the hidden layer, a 2048-column slab of the padded output weights and of
  the padded bias, and stores the 512 × 2048 block of logits. Stated here: what the stored block is as a function of the
  loaded blocks, that the body runs to the end leaving its inputs alone, and the pipeline's proof data built from that.
-/
import proofs.«109752_j56925496541497_1_alg».proof.Proof.Gen.Kernel.Launch
import proofs.«109752_j56925496541497_1_alg».proof.Proof.Gen.Kernel.Skeleton
import proofs.«109752_j56925496541497_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: where it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each window whole. -/

abbrev r1_0 : Rect S512x1024 := Rect.unit (s := S512x1024) ![0, 0] S512x1024.size inb_S512x1024_S512x1024_0_0
abbrev r1_1 : Rect S1024x2048 := Rect.unit (s := S1024x2048) ![0, 0] S1024x2048.size inb_S1024x2048_S1024x2048_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-- What the body leaves in the output window's staging buffer, from the input blocks: its one store, of the body's arithmetic on what it loaded. -/
def out1_3 (x0 : Vec F S512x1024 .bf16) (x1 : Vec F S1024x2048 .bf16) (x2 : Vec F S1x2048 .f32) : Vec F S512x2048 .f32 :=
  View.canon [⟨r1_3, k1_pay1 (View.ld x0 r1_0) (View.ld x1 r1_1) (View.ld x2 r1_2)⟩]

/-- The one store covers the buffer. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

set_option maxHeartbeats 4000000 in
/-- The body, on whole staging buffers holding the input blocks and an output buffer holding anything, runs to the end: the inputs are left as they were and the output holds the stored value. -/
theorem sound_kernel1 (c : Dev nD) (E : Set ℕ) (i : grid1.Coords) (a0 : Memref sig .tc .vmem S512x1024 .bf16) (ha0 : a0.IsWhole) (a1 : Memref sig .tc .vmem S1024x2048 .bf16) (ha1 : a1.IsWhole) (a2 : Memref sig .tc .vmem S1x2048 .f32) (ha2 : a2.IsWhole) (a3 : Memref sig .tc .vmem S512x2048 .f32) (ha3 : a3.IsWhole)
    (x0 : Vec F S512x1024 .bf16) (x1 : Vec F S1024x2048 .bf16) (x2 : Vec F S1x2048 .f32) (Kc : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ Kc ⟨⟩))
      ⊢ wp frame (wpE (defs₀ (F := F)) Variants.none c none) E (cc1__stageB_kernel i a0 ha0 a1 ha1 a2 ha2 a3 ha3) Kc := by
  simp only [cc1__stageB_kernel_eq_skeleton]; unfold cc1__stageB_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's buffer still at its block and the output's at the stored value of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Regs.lean ====
/-
  The two kernel regions as segments of the whole program's run, and the program's frame.

  Between two items of the program a core holds every unscoped buffer at known contents: the launch contents, then each
  host stretch applied, and after a kernel region the region's output array at what its write-backs leave (every other
  buffer as the region found it). A region's record says: entered from that state, its arrays are split out of the
  unscoped buffers, the pipeline runs with the body obligation of its region, and the arrays are put back at the exit
  contents. With one record per region the conditional frame gives the frame claim: every argument array ends as launched.
-/
import proofs.«109752_j56925496541497_1_alg».proof.Proof.K.RegionA
import proofs.«109752_j56925496541497_1_alg».proof.Proof.K.RegionB
import proofs.«109752_j56925496541497_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- The buffers as the first region finds them: the launch contents after the first host stretch. -/
abbrev VA (c : Dev nD) (b : Ref sig .tc) : Buf (Elt F) ((c : Thread nD τ).loc b) := Gen.V1 m c b

/-- What the first region leaves in its output array (the second hidden layer, all 4096 rows): its write-backs folded. -/
def o23 (c : Dev nD) : Buf (Elt F) ((c : Thread nD τ).loc main_v23) := (dat0 (VA m) c).arrAt 5 cfg0.N

/-- The regions' leavings up to the first region only (the second region's entry contents are stated over these). -/
def outsA : Gen.Outs (F := F) := fun _ r c => Function.update (Gen.V1 m c) (Proc.devRef .tc main_v23) (o23 m c) (Proc.devRef .tc r)

/-- The buffers as the second region finds them. -/
abbrev VB (c : Dev nD) (b : Ref sig .tc) : Buf (Elt F) ((c : Thread nD τ).loc b) := Gen.V7 m (outsA m) c b

/-- What the second region leaves in its output array (the padded logits): its write-backs folded. -/
def o27 (c : Dev nD) : Buf (Elt F) ((c : Thread nD τ).loc main_v27) := (dat1 (VB m) c).arrAt 3 cfg1.N

/-- What the regions leave, as the conditional frame takes it. -/
def outs : Gen.Outs (F := F) := fun _ r c =>
  Function.update (Function.update (Gen.V1 m c) (Proc.devRef .tc main_v23) (o23 m c)) (Proc.devRef .tc main_v27) (o27 m c) (Proc.devRef .tc r)

theorem outsA_23 (c : Dev nD) : outsA m 2 main_v23 c = o23 m c := by
  unfold outsA; exact Function.update_self ..
theorem outs_23 (c : Dev nD) : outs m 2 main_v23 c = o23 m c := by
  unfold outs
  rw [Function.update_of_ne (StableHlo.devRef_ne_of_ne (by decide) : (Proc.devRef .tc main_v23 : DevRef τ sig) ≠ Proc.devRef .tc main_v27)]
  exact Function.update_self ..
theorem outs_27 (c : Dev nD) : outs m 8 main_v27 c = o27 m c := by
  unfold outs; exact Function.update_self ..

theorem V2_outs (c : Dev nD) : Gen.V2 m (outs m) c = Gen.V2 m (outsA m) c := by
  unfold Gen.V2; rw [outs_23, outsA_23]
theorem V7_outs (c : Dev nD) : Gen.V7 m (outs m) c = Gen.V7 m (outsA m) c := by
  unfold Gen.V7 Gen.V6 Gen.V5 Gen.V4 Gen.V3; rw [V2_outs]
/-- The contents at the second region's exit, over the entry contents `VB`. -/
theorem V8_outs (c : Dev nD) : Gen.V8 m (outs m) c = Function.update (Gen.V7 m (outsA m) c) (Proc.devRef .tc main_v27) (o27 m c) := by
  unfold Gen.V8; rw [V7_outs, outs_27]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- Beside the buffers a core keeps its generator register at some state and owes nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The exit contents, array by array -/

theorem hF0 (c : Dev nD) (w : Fin cfg0.W) : (dat0 (VA m) c).arrAt w cfg0.N = Gen.V2 m (outsA m) c (Proc.devRef .tc (Pipeline.arrRef spec0 w)) := by
  match w with
  | ⟨0, _⟩ => exact ((dat0 (VA m) c).arrAt_in 0 rfl _).trans ((A_eq0 (VA m) c 0).trans (Gen.V2_of m (outsA m) c _ (by decide)).symm)
  | ⟨1, _⟩ => exact ((dat0 (VA m) c).arrAt_in 1 rfl _).trans ((A_eq0 (VA m) c 1).trans (Gen.V2_of m (outsA m) c _ (by decide)).symm)
  | ⟨2, _⟩ => exact ((dat0 (VA m) c).arrAt_in 2 rfl _).trans ((A_eq0 (VA m) c 2).trans (Gen.V2_of m (outsA m) c _ (by decide)).symm)
  | ⟨3, _⟩ => exact ((dat0 (VA m) c).arrAt_in 3 rfl _).trans ((A_eq0 (VA m) c 3).trans (Gen.V2_of m (outsA m) c _ (by decide)).symm)
  | ⟨4, _⟩ => exact ((dat0 (VA m) c).arrAt_in 4 rfl _).trans ((A_eq0 (VA m) c 4).trans (Gen.V2_of m (outsA m) c _ (by decide)).symm)
  | ⟨5, _⟩ =>
    show _ = Function.update (Gen.V1 m c) (Proc.devRef .tc main_v23) (outsA m 2 main_v23 c) (Proc.devRef .tc main_v23)
    rw [Function.update_self, outsA_23]; rfl
theorem hrest0 (c : Dev nD) : ∀ b : Ref sig .tc, b ∉ Finset.univ.image (Pipeline.arrRef spec0) → Gen.V2 m (outsA m) c (Proc.devRef .tc b) = Gen.V1 m c (Proc.devRef .tc b) :=
  fun b hb => Gen.V2_of m (outsA m) c b (by
    intro h; rw [List.mem_singleton] at h; subst h
    exact hb (Finset.mem_image.mpr ⟨5, Finset.mem_univ _, rfl⟩))

theorem hF1 (c : Dev nD) (w : Fin cfg1.W) : (dat1 (VB m) c).arrAt w cfg1.N
    = Function.update (Gen.V7 m (outsA m) c) (Proc.devRef .tc main_v27) (o27 m c) (Proc.devRef .tc (Pipeline.arrRef spec1 w)) := by
  match w with
  | ⟨0, _⟩ =>
    rw [Function.update_of_ne (StableHlo.devRef_ne_of_ne (by decide) : (Proc.devRef .tc (Pipeline.arrRef spec1 0) : DevRef τ sig) ≠ Proc.devRef .tc main_v27)]
    exact ((dat1 (VB m) c).arrAt_in 0 rfl _).trans (A_eq1 (VB m) c 0)
  | ⟨1, _⟩ =>
    rw [Function.update_of_ne (StableHlo.devRef_ne_of_ne (by decide) : (Proc.devRef .tc (Pipeline.arrRef spec1 1) : DevRef τ sig) ≠ Proc.devRef .tc main_v27)]
    exact ((dat1 (VB m) c).arrAt_in 1 rfl _).trans (A_eq1 (VB m) c 1)
  | ⟨2, _⟩ =>
    rw [Function.update_of_ne (StableHlo.devRef_ne_of_ne (by decide) : (Proc.devRef .tc (Pipeline.arrRef spec1 2) : DevRef τ sig) ≠ Proc.devRef .tc main_v27)]
    exact ((dat1 (VB m) c).arrAt_in 2 rfl _).trans (A_eq1 (VB m) c 2)
  | ⟨3, _⟩ =>
    show _ = Function.update (Gen.V7 m (outsA m) c) (Proc.devRef .tc main_v27) (o27 m c) (Proc.devRef .tc main_v27)
    rw [Function.update_self]; rfl
theorem hrest1 (c : Dev nD) : ∀ b : Ref sig .tc, b ∉ Finset.univ.image (Pipeline.arrRef spec1) →
    Function.update (Gen.V7 m (outsA m) c) (Proc.devRef .tc main_v27) (o27 m c) (Proc.devRef .tc b) = Gen.V7 m (outsA m) c (Proc.devRef .tc b) :=
  fun b hb => by
    rw [Function.update_of_ne (StableHlo.devRef_ne_of_ne (fun h => hb (Finset.mem_image.mpr ⟨3, Finset.mem_univ _, h.symm⟩)) : (Proc.devRef .tc b : DevRef τ sig) ≠ Proc.devRef .tc main_v27)]

/-! ## The regions as segments -/

set_option backward.isDefEq.respectTransparency.types false in
/-- The first region: entered with every unscoped buffer at the contents after the first host stretch, left with the hidden layer's array at its write-backs. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V2 m (outsA m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the contents after the padding stretches, left with the padded logits' array at its write-backs. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Function.update (Gen.V7 m (outsA m) c) (Proc.devRef .tc main_v27) (o27 m c)) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Function.update (Gen.V7 m (outsA m) c) (Proc.devRef .tc main_v27) (o27 m c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the conditional frame asks besides the records -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

theorem hpre1 (c : Dev nD) : iprop(StableHlo.held (c : Thread nD τ) (Pipeline.ucRefs τ sig) (Gen.V7 m (outs m) c) ∗ E (F := F) 1 c) ⊢ (reg1 m).pre c := by
  rw [V7_outs]; exact .rfl
theorem hpost1 (c : Dev nD) : (reg1 m).post c ⊢ iprop(StableHlo.held (c : Thread nD τ) (Pipeline.ucRefs τ sig) (Gen.V8 m (outs m) c) ∗ E (F := F) 2 c) := by
  rw [V8_outs]; exact .rfl
theorem hpost0 (c : Dev nD) : (reg0 m).post c ⊢ iprop(StableHlo.held (c : Thread nD τ) (Pipeline.ucRefs τ sig) (Gen.V2 m (outs m) c) ∗ E (F := F) 1 c) := by
  rw [V2_outs]; exact .rfl

/-! ## The frame -/

/-- Every weakly fair execution of the program ends, faults nowhere, and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (hpost0 m) (reg1 m) (hpre1 m) (hpost1 m)

end Cert.Kernel.Hand

end
-- ==== Proof.KI.RegionA.lean ====
/-
  The first kernel region (the two hidden layers) at one grid point, for any contents `V` of the device's buffers at the
  region's entry. A point takes a block of 256 rows of the embedded input and the whole of both weight matrices and
  biases, and stores 256 rows of the second hidden layer. Stated here: what the stored block is as a function of the
  loaded blocks, that the body runs to the end leaving its inputs alone, and the pipeline's proof data built from that.
-/
import proofs.«109752_j56925496541497_1_alg».proof.Proof.Gen.KernelIdeal.Launch
import proofs.«109752_j56925496541497_1_alg».proof.Proof.Gen.KernelIdeal.Skeleton
import proofs.«109752_j56925496541497_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: where it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! The body reads each window whole. -/

abbrev r0_0 : Rect S256x3072 := Rect.unit (s := S256x3072) ![0, 0] S256x3072.size inb_S256x3072_S256x3072_0_0
abbrev r0_1 : Rect S3072x1024 := Rect.unit (s := S3072x1024) ![0, 0] S3072x1024.size inb_S3072x1024_S3072x1024_0_0
abbrev r0_2 : Rect S1x1024 := Rect.unit (s := S1x1024) ![0, 0] S1x1024.size inb_S1x1024_S1x1024_0_0
abbrev r0_3 : Rect S1024x1024 := Rect.unit (s := S1024x1024) ![0, 0] S1024x1024.size inb_S1024x1024_S1024x1024_0_0
abbrev r0_4 : Rect S1x1024 := Rect.unit (s := S1x1024) ![0, 0] S1x1024.size inb_S1x1024_S1x1024_0_0
abbrev r0_5 : Rect S256x1024 := Rect.unit (s := S256x1024) ![0, 0] S256x1024.size inb_S256x1024_S256x1024_0_0

/-- What the body leaves in the output window's staging buffer, from the input blocks: its one store, of the body's arithmetic on what it loaded. -/
def out0_5 (x0 : Vec F S256x3072 .bf16) (x1 : Vec F S3072x1024 .bf16) (x2 : Vec F S1x1024 .f32) (x3 : Vec F S1024x1024 .bf16) (x4 : Vec F S1x1024 .f32) : Vec F S256x1024 .bf16 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x1024 .bf16) (y : S256x1024.Idx) :
    ∃ pc ∈ ([⟨r0_5, p0⟩] : List (View.Piece (Elt F) S256x1024 .bf16)), y ∈ pc.1.set :=
  View.cover_of_tiled [⟨r0_5, p0⟩] S256x1024.size (by rfl) y

set_option maxHeartbeats 4000000 in
/-- The body, on whole staging buffers holding the input blocks and an output buffer holding anything, runs to the end: the inputs are left as they were and the output holds the stored value. -/
theorem sound_kernel0 (c : Dev nD) (E : Set ℕ) (i : grid0.Coords) (a0 : Memref sig .tc .vmem S256x3072 .bf16) (ha0 : a0.IsWhole) (a1 : Memref sig .tc .vmem S3072x1024 .bf16) (ha1 : a1.IsWhole) (a2 : Memref sig .tc .vmem S1x1024 .f32) (ha2 : a2.IsWhole) (a3 : Memref sig .tc .vmem S1024x1024 .bf16) (ha3 : a3.IsWhole) (a4 : Memref sig .tc .vmem S1x1024 .f32) (ha4 : a4.IsWhole) (a5 : Memref sig .tc .vmem S256x1024 .bf16) (ha5 : a5.IsWhole)
    (x0 : Vec F S256x3072 .bf16) (x1 : Vec F S3072x1024 .bf16) (x2 : Vec F S1x1024 .f32) (x3 : Vec F S1024x1024 .bf16) (x4 : Vec F S1x1024 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0_5 x0 x1 x2 x3 x4)) -∗ Kc ⟨⟩))
      ⊢ wp frame (wpE (defs₀ (F := F)) Variants.none c none) E (cc0__stageA_kernel i a0 ha0 a1 ha1 a2 ha2 a3 ha3 a4 ha4 a5 ha5) Kc := by
  simp only [cc0__stageA_kernel_eq_skeleton]; unfold cc0__stageA_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core `c`: the arrays as the region finds them; after the body at point `t` each input's buffer still at its block and the output's at the stored value of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegionB.lean ====
/-
  The second kernel region (the output projection) at one grid point, for any contents `V` of the device's buffers at
  the region's entry. A point takes 512 rows of the hidden layer, a 2048-column slab of the padded output weights and of
  the padded bias, and stores the 512 × 2048 block of logits. Stated here: what the stored block is as a function of the
  loaded blocks, that the body runs to the end leaving its inputs alone, and the pipeline's proof data built from that.
-/
import proofs.«109752_j56925496541497_1_alg».proof.Proof.Gen.KernelIdeal.Launch
import proofs.«109752_j56925496541497_1_alg».proof.Proof.Gen.KernelIdeal.Skeleton
import proofs.«109752_j56925496541497_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: where it is not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: where it is not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! The body reads each window whole. -/

abbrev r1_0 : Rect S512x1024 := Rect.unit (s := S512x1024) ![0, 0] S512x1024.size inb_S512x1024_S512x1024_0_0
abbrev r1_1 : Rect S1024x2048 := Rect.unit (s := S1024x2048) ![0, 0] S1024x2048.size inb_S1024x2048_S1024x2048_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-- What the body leaves in the output window's staging buffer, from the input blocks: its one store, of the body's arithmetic on what it loaded. -/
def out1_3 (x0 : Vec F S512x1024 .bf16) (x1 : Vec F S1024x2048 .bf16) (x2 : Vec F S1x2048 .f32) : Vec F S512x2048 .f32 :=
  View.canon [⟨r1_3, k1_pay1 (View.ld x0 r1_0) (View.ld x1 r1_1) (View.ld x2 r1_2)⟩]

/-- The one store covers the buffer. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

set_option maxHeartbeats 4000000 in
/-- The body, on whole staging buffers holding the input blocks and an output buffer holding anything, runs to the end: the inputs are left as they were and the output holds the stored value. -/
theorem sound_kernel1 (c : Dev nD) (E : Set ℕ) (i : grid1.Coords) (a0 : Memref sig .tc .vmem S512x1024 .bf16) (ha0 : a0.IsWhole) (a1 : Memref sig .tc .vmem S1024x2048 .bf16) (ha1 : a1.IsWhole) (a2 : Memref sig .tc .vmem S1x2048 .f32) (ha2 : a2.IsWhole) (a3 : Memref sig .tc .vmem S512x2048 .f32) (ha3 : a3.IsWhole)
    (x0 : Vec F S512x1024 .bf16) (x1 : Vec F S1024x2048 .bf16) (x2 : Vec F S1x2048 .f32) (Kc : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ Kc ⟨⟩))
      ⊢ wp frame (wpE (defs₀ (F := F)) Variants.none c none) E (cc1__stageB_kernel i a0 ha0 a1 ha1 a2 ha2 a3 ha3) Kc := by
  simp only [cc1__stageB_kernel_eq_skeleton]; unfold cc1__stageB_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's buffer still at its block and the output's at the stored value of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Regs.lean ====
/-
  The two kernel regions as segments of the whole program's run, and the program's frame.

  Between two items of the program a core holds every unscoped buffer at known contents: the launch contents, then each
  host stretch applied, and after a kernel region the region's output array at what its write-backs leave (every other
  buffer as the region found it). A region's record says: entered from that state, its arrays are split out of the
  unscoped buffers, the pipeline runs with the body obligation of its region, and the arrays are put back at the exit
  contents. With one record per region the conditional frame gives the frame claim: every argument array ends as launched.
-/
import proofs.«109752_j56925496541497_1_alg».proof.Proof.KI.RegionA
import proofs.«109752_j56925496541497_1_alg».proof.Proof.KI.RegionB
import proofs.«109752_j56925496541497_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- The buffers as the first region finds them: the launch contents after the first host stretch. -/
abbrev VA (c : Dev nD) (b : Ref sig .tc) : Buf (Elt F) ((c : Thread nD τ).loc b) := Gen.V1 m c b

/-- What the first region leaves in its output array (the second hidden layer, all 4096 rows): its write-backs folded. -/
def o23 (c : Dev nD) : Buf (Elt F) ((c : Thread nD τ).loc main_v23) := (dat0 (VA m) c).arrAt 5 cfg0.N

/-- The regions' leavings up to the first region only (the second region's entry contents are stated over these). -/
def outsA : Gen.Outs (F := F) := fun _ r c => Function.update (Gen.V1 m c) (Proc.devRef .tc main_v23) (o23 m c) (Proc.devRef .tc r)

/-- The buffers as the second region finds them. -/
abbrev VB (c : Dev nD) (b : Ref sig .tc) : Buf (Elt F) ((c : Thread nD τ).loc b) := Gen.V7 m (outsA m) c b

/-- What the second region leaves in its output array (the padded logits): its write-backs folded. -/
def o27 (c : Dev nD) : Buf (Elt F) ((c : Thread nD τ).loc main_v27) := (dat1 (VB m) c).arrAt 3 cfg1.N

/-- What the regions leave, as the conditional frame takes it. -/
def outs : Gen.Outs (F := F) := fun _ r c =>
  Function.update (Function.update (Gen.V1 m c) (Proc.devRef .tc main_v23) (o23 m c)) (Proc.devRef .tc main_v27) (o27 m c) (Proc.devRef .tc r)

theorem outsA_23 (c : Dev nD) : outsA m 2 main_v23 c = o23 m c := by
  unfold outsA; exact Function.update_self ..
theorem outs_23 (c : Dev nD) : outs m 2 main_v23 c = o23 m c := by
  unfold outs
  rw [Function.update_of_ne (StableHlo.devRef_ne_of_ne (by decide) : (Proc.devRef .tc main_v23 : DevRef τ sig) ≠ Proc.devRef .tc main_v27)]
  exact Function.update_self ..
theorem outs_27 (c : Dev nD) : outs m 8 main_v27 c = o27 m c := by
  unfold outs; exact Function.update_self ..

theorem V2_outs (c : Dev nD) : Gen.V2 m (outs m) c = Gen.V2 m (outsA m) c := by
  unfold Gen.V2; rw [outs_23, outsA_23]
theorem V7_outs (c : Dev nD) : Gen.V7 m (outs m) c = Gen.V7 m (outsA m) c := by
  unfold Gen.V7 Gen.V6 Gen.V5 Gen.V4 Gen.V3; rw [V2_outs]
/-- The contents at the second region's exit, over the entry contents `VB`. -/
theorem V8_outs (c : Dev nD) : Gen.V8 m (outs m) c = Function.update (Gen.V7 m (outsA m) c) (Proc.devRef .tc main_v27) (o27 m c) := by
  unfold Gen.V8; rw [V7_outs, outs_27]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- Beside the buffers a core keeps its generator register at some state and owes nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The exit contents, array by array -/

theorem hF0 (c : Dev nD) (w : Fin cfg0.W) : (dat0 (VA m) c).arrAt w cfg0.N = Gen.V2 m (outsA m) c (Proc.devRef .tc (Pipeline.arrRef spec0 w)) := by
  match w with
  | ⟨0, _⟩ => exact ((dat0 (VA m) c).arrAt_in 0 rfl _).trans ((A_eq0 (VA m) c 0).trans (Gen.V2_of m (outsA m) c _ (by decide)).symm)
  | ⟨1, _⟩ => exact ((dat0 (VA m) c).arrAt_in 1 rfl _).trans ((A_eq0 (VA m) c 1).trans (Gen.V2_of m (outsA m) c _ (by decide)).symm)
  | ⟨2, _⟩ => exact ((dat0 (VA m) c).arrAt_in 2 rfl _).trans ((A_eq0 (VA m) c 2).trans (Gen.V2_of m (outsA m) c _ (by decide)).symm)
  | ⟨3, _⟩ => exact ((dat0 (VA m) c).arrAt_in 3 rfl _).trans ((A_eq0 (VA m) c 3).trans (Gen.V2_of m (outsA m) c _ (by decide)).symm)
  | ⟨4, _⟩ => exact ((dat0 (VA m) c).arrAt_in 4 rfl _).trans ((A_eq0 (VA m) c 4).trans (Gen.V2_of m (outsA m) c _ (by decide)).symm)
  | ⟨5, _⟩ =>
    show _ = Function.update (Gen.V1 m c) (Proc.devRef .tc main_v23) (outsA m 2 main_v23 c) (Proc.devRef .tc main_v23)
    rw [Function.update_self, outsA_23]; rfl
theorem hrest0 (c : Dev nD) : ∀ b : Ref sig .tc, b ∉ Finset.univ.image (Pipeline.arrRef spec0) → Gen.V2 m (outsA m) c (Proc.devRef .tc b) = Gen.V1 m c (Proc.devRef .tc b) :=
  fun b hb => Gen.V2_of m (outsA m) c b (by
    intro h; rw [List.mem_singleton] at h; subst h
    exact hb (Finset.mem_image.mpr ⟨5, Finset.mem_univ _, rfl⟩))

theorem hF1 (c : Dev nD) (w : Fin cfg1.W) : (dat1 (VB m) c).arrAt w cfg1.N
    = Function.update (Gen.V7 m (outsA m) c) (Proc.devRef .tc main_v27) (o27 m c) (Proc.devRef .tc (Pipeline.arrRef spec1 w)) := by
  match w with
  | ⟨0, _⟩ =>
    rw [Function.update_of_ne (StableHlo.devRef_ne_of_ne (by decide) : (Proc.devRef .tc (Pipeline.arrRef spec1 0) : DevRef τ sig) ≠ Proc.devRef .tc main_v27)]
    exact ((dat1 (VB m) c).arrAt_in 0 rfl _).trans (A_eq1 (VB m) c 0)
  | ⟨1, _⟩ =>
    rw [Function.update_of_ne (StableHlo.devRef_ne_of_ne (by decide) : (Proc.devRef .tc (Pipeline.arrRef spec1 1) : DevRef τ sig) ≠ Proc.devRef .tc main_v27)]
    exact ((dat1 (VB m) c).arrAt_in 1 rfl _).trans (A_eq1 (VB m) c 1)
  | ⟨2, _⟩ =>
    rw [Function.update_of_ne (StableHlo.devRef_ne_of_ne (by decide) : (Proc.devRef .tc (Pipeline.arrRef spec1 2) : DevRef τ sig) ≠ Proc.devRef .tc main_v27)]
    exact ((dat1 (VB m) c).arrAt_in 2 rfl _).trans (A_eq1 (VB m) c 2)
  | ⟨3, _⟩ =>
    show _ = Function.update (Gen.V7 m (outsA m) c) (Proc.devRef .tc main_v27) (o27 m c) (Proc.devRef .tc main_v27)
    rw [Function.update_self]; rfl
theorem hrest1 (c : Dev nD) : ∀ b : Ref sig .tc, b ∉ Finset.univ.image (Pipeline.arrRef spec1) →
    Function.update (Gen.V7 m (outsA m) c) (Proc.devRef .tc main_v27) (o27 m c) (Proc.devRef .tc b) = Gen.V7 m (outsA m) c (Proc.devRef .tc b) :=
  fun b hb => by
    rw [Function.update_of_ne (StableHlo.devRef_ne_of_ne (fun h => hb (Finset.mem_image.mpr ⟨3, Finset.mem_univ _, h.symm⟩)) : (Proc.devRef .tc b : DevRef τ sig) ≠ Proc.devRef .tc main_v27)]

/-! ## The regions as segments -/

set_option backward.isDefEq.respectTransparency.types false in
/-- The first region: entered with every unscoped buffer at the contents after the first host stretch, left with the hidden layer's array at its write-backs. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V2 m (outsA m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at the contents after the padding stretches, left with the padded logits' array at its write-backs. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Function.update (Gen.V7 m (outsA m) c) (Proc.devRef .tc main_v27) (o27 m c)) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Function.update (Gen.V7 m (outsA m) c) (Proc.devRef .tc main_v27) (o27 m c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the conditional frame asks besides the records -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

theorem hpre1 (c : Dev nD) : iprop(StableHlo.held (c : Thread nD τ) (Pipeline.ucRefs τ sig) (Gen.V7 m (outs m) c) ∗ E (F := F) 1 c) ⊢ (reg1 m).pre c := by
  rw [V7_outs]; exact .rfl
theorem hpost1 (c : Dev nD) : (reg1 m).post c ⊢ iprop(StableHlo.held (c : Thread nD τ) (Pipeline.ucRefs τ sig) (Gen.V8 m (outs m) c) ∗ E (F := F) 2 c) := by
  rw [V8_outs]; exact .rfl
theorem hpost0 (c : Dev nD) : (reg0 m).post c ⊢ iprop(StableHlo.held (c : Thread nD τ) (Pipeline.ucRefs τ sig) (Gen.V2 m (outs m) c) ∗ E (F := F) 1 c) := by
  rw [V2_outs]; exact .rfl

/-! ## The frame -/

/-- Every weakly fair execution of the program ends, faults nowhere, and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (hpost0 m) (reg1 m) (hpre1 m) (hpost1 m)

end Cert.KernelIdeal.Hand

end
-- ==== Proof.KI.Run.lean ====
/-
  The idealized kernel program's run with the final memory read at EVERY unscoped buffer: each ends at the last of the
  contents between items (`Gen.V9`), the regions' leavings being the two pipelines' folded write-backs. The result
  buffer's contents are read off this in the value modules.
-/
import proofs.«109752_j56925496541497_1_alg».proof.Proof.KI.Regs
import proofs.«109752_j56925496541497_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of the program ends, faults nowhere, and leaves every unscoped buffer at the last contents between items. -/
theorem run : θ_run defs (onTc (τ := τ) (main (F := F))) ⟨m, fun _ => 0, ρ⟩ (fun r => ∀ c : Dev nD,
      ∀ b ∈ Pipeline.ucRefs τ sig, r.2.mem ((c : Thread nD τ).1, b) = Gen.V9 m (outs m) c b) :=
  GenP.run_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (hpost0 m) (reg1 m) (hpre1 m) (hpost1 m)

/-- An unscoped TensorCore buffer is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.LibNary3.lean ====
/-
  A general lemma about a host operation with three operand buffers (a concatenate of three pieces).
-/
import Idealize.ShloMosaic.Lib.StableHlo.Run

namespace Cert.Lib

open Idealize.ShloMosaic Idealize.ShloMosaic.StableHlo

variable {τ : Topo} {sig : RefSig} {Val : EltTy → Type}

/-- The result of an operation over a LITERAL family of three operand buffers, with each operand's contents read at
    its own buffer: `Fin.cons (F x) (Fin.cons (F a) (Fin.cons (F b) …))` in place of `fun k => F (![x, a, b] k)`, so
    that a fold over earlier operations can go on being rewritten inside the three operands. (The library states the
    same for four operands.) -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib
-- ==== Proof.KI.HostVals.lean ====
/-
  What the host operations around the two kernel regions compute, as terms of the launch memory (any float family).

  Before the first region the host gathers the token windows' embeddings, flattens them to rows and rounds to bf16,
  rounds the three weight matrices to bf16 and reshapes the two hidden biases to one row. Between the regions it pads
  the output weights and the output bias with zero columns. After the second region it slices the padding off and
  reshapes to (position, batch entry, vocabulary). The embedding chain is the reference's own (the same nineteen
  operations on the same two arguments), so it is carried as ONE term: the reference's stage for the gather.
-/
import proofs.«109752_j56925496541497_1_alg».proof.Proof.KI.Run
import proofs.«109752_j56925496541497_1_alg».proof.Proof.LibNary3
import proofs.«109752_j56925496541497_1_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- Rewrites a fold of host operations at one buffer down to the operations' functions of the launch contents; a
    three-piece concatenate is opened piece by piece. -/
local macro "host_results" : tactic =>
  `(tactic| (simp only [after_cons, after_nil]
             repeat (first
               | rw [nullary_result] | rw [unary_result] | rw [binary_result] | rw [ternary_result] | rw [quaternary_result]
               | rw [reshape_result] | rw [Cert.Lib.nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-! ## Before the first region -/

/-- The embedded token windows [2048, 2, 3, 1024]: the reference's gather stage of the token and embedding arguments. -/
abbrev emb4 (c : Dev nD) : FVec F S2048x2x3x1024 .f32 :=
  Cert.ReferenceIdeal.Read.val_main_v15 (F := F) (m ((c.tc : Thread nD τ).loc main_arg0)) (m ((c.tc : Thread nD τ).loc main_arg1))

set_option maxHeartbeats 2000000 in
/-- The first region's row operand: the embedded windows flattened to [4096, 3072], rounded to bf16. -/
theorem V1_v17 (c : Dev nD) : (Gen.V1 m c (Proc.devRef .tc main_v17) : FVec F S4096x3072 .bf16)
    = truncf .bf16 (shapeCast S4096x3072 (emb4 m c) shapeCasts_S2048x2x3x1024_S4096x3072) bitsLt_bf16_f32 := by
  show StableHlo.after hostOps0 (Gen.V0 m c) (Proc.devRef .tc main_v17) = _
  host_results
  try rfl

theorem V1_v18 (c : Dev nD) : (Gen.V1 m c (Proc.devRef .tc main_v18) : FVec F S3072x1024 .bf16)
    = truncf .bf16 (m ((c.tc : Thread nD τ).loc main_arg2) : FVec F S3072x1024 .f32) bitsLt_bf16_f32 := by
  show StableHlo.after hostOps0 (Gen.V0 m c) (Proc.devRef .tc main_v18) = _
  host_results
  try rfl

theorem V1_v19 (c : Dev nD) : (Gen.V1 m c (Proc.devRef .tc main_v19) : FVec F S1024x1024 .bf16)
    = truncf .bf16 (m ((c.tc : Thread nD τ).loc main_arg4) : FVec F S1024x1024 .f32) bitsLt_bf16_f32 := by
  show StableHlo.after hostOps0 (Gen.V0 m c) (Proc.devRef .tc main_v19) = _
  host_results
  try rfl

theorem V1_v20 (c : Dev nD) : (Gen.V1 m c (Proc.devRef .tc main_v20) : FVec F S1024x50257 .bf16)
    = truncf .bf16 (m ((c.tc : Thread nD τ).loc main_arg6) : FVec F S1024x50257 .f32) bitsLt_bf16_f32 := by
  show StableHlo.after hostOps0 (Gen.V0 m c) (Proc.devRef .tc main_v20) = _
  host_results
  try rfl

theorem V1_v21 (c : Dev nD) : (Gen.V1 m c (Proc.devRef .tc main_v21) : FVec F S1x1024 .f32)
    = shapeCast S1x1024 (m ((c.tc : Thread nD τ).loc main_arg3) : FVec F S1024 .f32) shapeCasts_S1024_S1x1024 := by
  show StableHlo.after hostOps0 (Gen.V0 m c) (Proc.devRef .tc main_v21) = _
  host_results
  try rfl

theorem V1_v22 (c : Dev nD) : (Gen.V1 m c (Proc.devRef .tc main_v22) : FVec F S1x1024 .f32)
    = shapeCast S1x1024 (m ((c.tc : Thread nD τ).loc main_arg5) : FVec F S1024 .f32) shapeCasts_S1024_S1x1024 := by
  show StableHlo.after hostOps0 (Gen.V0 m c) (Proc.devRef .tc main_v22) = _
  host_results
  try rfl

/-! ## Between the regions, and after the second -/

/-- The hidden layer's array as the second region finds it is what the first region left. -/
theorem VB_v23 (c : Dev nD) : VB m c main_v23 = o23 m c := by
  refine (Gen.V7_of m (outsA m) c main_v23 (by decide)).trans <| (Gen.V6_of m (outsA m) c main_v23 (by decide)).trans <|
    (Gen.V5_of m (outsA m) c main_v23 (by decide)).trans <| (Gen.V4_of m (outsA m) c main_v23 (by decide)).trans <|
    (Gen.V3_of m (outsA m) c main_v23 (by decide)).trans ?_
  show Function.update (Gen.V1 m c) (Proc.devRef .tc main_v23) (outsA m 2 main_v23 c) (Proc.devRef .tc main_v23) = _
  rw [Function.update_self, outsA_23]

/-- The padded output weights [1024, 51200]: the rounded weights with 943 columns of the converted integer zero appended. -/
theorem VB_v24 (c : Dev nD) : (VB m c main_v24 : FVec F S1024x51200 .bf16)
    = pad S1024x51200 ![0, 0] ![0, 943] ![0, 0] (truncf .bf16 (m ((c.tc : Thread nD τ).loc main_arg6) : FVec F S1024x50257 .f32) bitsLt_bf16_f32)
        (sitofp .bf16 (constantI S_ 32 0#32)) pads_S1024x50257_S1024x51200_000_09430 h_S_ := by
  refine (Gen.V7_of m (outsA m) c main_v24 (by decide)).trans <| (Gen.V6_of m (outsA m) c main_v24 (by decide)).trans <|
    (Gen.V5_of m (outsA m) c main_v24 (by decide)).trans ?_
  show StableHlo.after hostOps1_1 (Gen.V3 m (outsA m) c) (Proc.devRef .tc main_v24) = _
  unfold hostOps1_1 StableHlo.TRef.unary StableHlo.TRef.binary
  host_results
  simp only [TRef.ofBuf, TRef.toBuf, cast_eq]
  rw [Gen.V2_of m (outsA m) c main_v20 (by decide), V1_v20]

/-- The padded output bias as one row [1, 51200]. -/
theorem VB_v26 (c : Dev nD) : (VB m c main_v26 : FVec F S1x51200 .f32)
    = shapeCast S1x51200 (pad S51200 ![0] ![943] ![0] (m ((c.tc : Thread nD τ).loc main_arg7) : FVec F S50257 .f32)
        (sitofp .f32 (constantI S_ 32 0#32)) pads_S50257_S51200_09430 h_S_) shapeCasts_S51200_S1x51200 := by
  show StableHlo.after hostOps1_4 (Gen.V6 m (outsA m) c) (Proc.devRef .tc main_v26) = _
  host_results
  show shapeCast _ (StableHlo.after hostOps1_3 (Gen.V5 m (outsA m) c) (Proc.devRef .tc main_v25)) _ = _
  unfold hostOps1_3 StableHlo.TRef.unary StableHlo.TRef.binary
  host_results
  simp only [TRef.ofBuf, TRef.toBuf, cast_eq]
  rw [Gen.V2_of m (outsA m) c main_arg7 (by decide), Gen.V1_of m c main_arg7 (by decide)]
  rfl

/-- The program's result: the second region's array with the padding sliced off, reshaped to (position, batch entry, vocabulary). -/
theorem V9_v29 (c : Dev nD) : (Gen.V9 m (outs m) c (Proc.devRef .tc main_v29) : FVec F S2048x2x50257 .f32)
    = shapeCast S2048x2x50257 (extractStridedSlice S4096x50257 ![0, 0] (o27 m c : FVec F S4096x51200 .f32) slices_S4096x51200_S4096x50257_0_0)
        shapeCasts_S4096x50257_S2048x2x50257 := by
  show StableHlo.after hostOps2 (Gen.V8 m (outs m) c) (Proc.devRef .tc main_v29) = _
  host_results
  rw [show Gen.V8 m (outs m) c (Proc.devRef .tc main_v27) = o27 m c from by
    show Function.update (Gen.V7 m (outs m) c) (Proc.devRef .tc main_v27) (outs m 8 main_v27 c) (Proc.devRef .tc main_v27) = _
    rw [Function.update_self, outs_27]]
  try rfl

end Cert.KernelIdeal.Hand

end
-- ==== Proof.Spec.lean ====
/-
  The mathematics both programs compute, stated once over plain coordinates on the extended reals.

  A token window is embedded and flattened to a row `X n` of 3072 numbers (n = 2·s + b counts the 4096 (sequence, batch)
  pairs). Two dense layers with the activation x ↦ x·σ(x) follow, then the output projection:
    hid1 n j = silu (Σ_i X n i · W1 i j + b1 j)
    hid2 n o = silu (Σ_j hid1 n j · W2 j o + b2 o)
    logit n v = Σ_k hid2 n k · Wout k v + bout v.
  Sums in the extended reals are commutative and associative, and no law beyond that is used: neither program
  regroups a product over a sum, so nothing here needs the inputs to be finite.
-/
import Idealize.ShloMosaic.PureOps.Ideal
import Idealize.ShloMosaic.Lib.ValueIdx

noncomputable section

namespace Cert.KGram

open Idealize.ShloMosaic

/-- The activation x·σ(x), with σ(x) = 1 / (1 + e^(-x)) read on the extended reals. -/
def silu (x : EReal) : EReal := x * Ideal.logistic x

/-- One output of a dense layer: the inner product of a row with a weight column, plus the bias. -/
def dense {K : Nat} (x w : Fin K → EReal) (b : EReal) : EReal := (∑ k : Fin K, x k * w k) + b

/-- First hidden layer at row `n`, unit `j`. -/
def hid1 (X : Fin 4096 → Fin 3072 → EReal) (W1 : Fin 3072 → Fin 1024 → EReal) (b1 : Fin 1024 → EReal)
    (n : Fin 4096) (j : Fin 1024) : EReal :=
  silu (dense (X n) (fun i => W1 i j) (b1 j))

/-- Second hidden layer at row `n`, unit `o`. -/
def hid2 (X : Fin 4096 → Fin 3072 → EReal) (W1 : Fin 3072 → Fin 1024 → EReal) (b1 : Fin 1024 → EReal)
    (W2 : Fin 1024 → Fin 1024 → EReal) (b2 : Fin 1024 → EReal) (n : Fin 4096) (o : Fin 1024) : EReal :=
  silu (dense (hid1 X W1 b1 n) (fun j => W2 j o) (b2 o))

/-- The output projection of a hidden row, for any width of the vocabulary axis. -/
def proj {Vn : Nat} (H : Fin 4096 → Fin 1024 → EReal) (Wo : Fin 1024 → Fin Vn → EReal) (bo : Fin Vn → EReal)
    (n : Fin 4096) (v : Fin Vn) : EReal :=
  dense (H n) (fun k => Wo k v) (bo v)

/-- The logits: the projection of the second hidden layer. -/
def logit (X : Fin 4096 → Fin 3072 → EReal) (W1 : Fin 3072 → Fin 1024 → EReal) (b1 : Fin 1024 → EReal)
    (W2 : Fin 1024 → Fin 1024 → EReal) (b2 : Fin 1024 → EReal) (Wout : Fin 1024 → Fin 50257 → EReal)
    (bout : Fin 50257 → EReal) (n : Fin 4096) (v : Fin 50257) : EReal :=
  proj (hid2 X W1 b1 W2 b2) Wout bout n v

/-- The embedded windows `X4[s, b, k, e]` (position, batch entry, window slot, embedding coordinate) flattened to rows:
    row `n = 2·s + b`, column `i = 1024·k + e`. -/
def rowsOf (X4 : (⟨4, ![2048, 2, 3, 1024]⟩ : Shape).Idx → EReal) (n : Fin 4096) (i : Fin 3072) : EReal :=
  X4 (ValueIdx.ix4 (⟨n.val / 2, by have := n.isLt; omega⟩ : Fin 2048) (⟨n.val % 2, by omega⟩ : Fin 2)
    (⟨i.val / 1024, by have := i.isLt; omega⟩ : Fin 3) (⟨i.val % 1024, by omega⟩ : Fin 1024))

/-- The pair (sequence position, batch entry) as a row number. -/
def rowOf (s : Fin 2048) (b : Fin 2) : Fin 4096 := ⟨s.val * 2 + b.val, by have := s.isLt; have := b.isLt; omega⟩

end Cert.KGram

end
-- ==== Proof.KI.ValA.lean ====
/-
  The value of the first kernel region's output array once the whole region has run, on the extended reals.

  The region walks 16 grid points. Point t loads rows 256·t … 256·t + 255 of the embedded input X [4096, 3072] and the
  whole of W1 [3072, 1024], b1 [1, 1024], W2 [1024, 1024], b2 [1, 1024], and stores 256 rows of
      silu (silu (X·W1 + b1)·W2 + b2),        silu x = x·σ(x),
  each matrix product a sum over the one contracted axis into a zero accumulator, each bias one row repeated down the
  block. Read at row p and column q of the block, the stored value depends only on row p of the loaded block of X: it is
  the second hidden layer of the specification at row 256·t + p, column q. The 16 blocks of 256 rows tile the 4096 rows
  of the output array (row r lies in the block of point r / 256), so after the last write-back every entry of the array
  is the specification's second hidden layer of the five input arrays.
-/
import proofs.«109752_j56925496541497_1_alg».proof.Proof.KI.RegionA
import proofs.«109752_j56925496541497_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The two matrix products at an entry

Both products contract the left operand's columns with the right operand's rows; there is no batch axis. At output
entry (p, q) and contraction position k the left operand is read at (p, k) and the right at (k, q). -/

theorem lhs_xw1_0 (i : S256x1024.Idx) (q : dot_S256x3072_S3072x1024_S256x1024_1_0_0_1_n_n.contr.Idx) :
    (dot_S256x3072_S3072x1024_S256x1024_1_0_0_1_n_n.lhsIdx i q 0).val = (i 0).val := by
  unfold DotDims.lhsIdx
  rw [dif_neg (show ¬(0 : Fin S256x3072.rank) ∈ dot_S256x3072_S3072x1024_S256x1024_1_0_0_1_n_n.lhsBatch by decide), dif_pos (show (0 : Fin S256x3072.rank) ∈ dot_S256x3072_S3072x1024_S256x1024_1_0_0_1_n_n.lhsNonContracting by decide)]
  rfl
theorem lhs_xw1_1 (i : S256x1024.Idx) (q : dot_S256x3072_S3072x1024_S256x1024_1_0_0_1_n_n.contr.Idx) :
    (dot_S256x3072_S3072x1024_S256x1024_1_0_0_1_n_n.lhsIdx i q 1).val = (q ⟨0, by decide⟩).val :=
  dot_S256x3072_S3072x1024_S256x1024_1_0_0_1_n_n.lhsIdx_val_of_single rfl i q
theorem rhs_xw1_0 (i : S256x1024.Idx) (q : dot_S256x3072_S3072x1024_S256x1024_1_0_0_1_n_n.contr.Idx) :
    (dot_S256x3072_S3072x1024_S256x1024_1_0_0_1_n_n.rhsIdx i q 0).val = (q ⟨0, by decide⟩).val :=
  dot_S256x3072_S3072x1024_S256x1024_1_0_0_1_n_n.rhsIdx_val_of_single rfl i q
theorem rhs_xw1_1 (i : S256x1024.Idx) (q : dot_S256x3072_S3072x1024_S256x1024_1_0_0_1_n_n.contr.Idx) :
    (dot_S256x3072_S3072x1024_S256x1024_1_0_0_1_n_n.rhsIdx i q 1).val = (i 1).val := by
  unfold DotDims.rhsIdx
  rw [dif_neg (show ¬(1 : Fin S3072x1024.rank) ∈ dot_S256x3072_S3072x1024_S256x1024_1_0_0_1_n_n.rhsBatch by decide), dif_pos (show (1 : Fin S3072x1024.rank) ∈ dot_S256x3072_S3072x1024_S256x1024_1_0_0_1_n_n.rhsNonContracting by decide)]
  rfl

/-- The first product into a zero accumulator, at entry (p, q): the sum over the 3072 input coordinates. -/
theorem xw1_apply (x : FVec Ideal S256x3072 .bf16) (w : FVec Ideal S3072x1024 .bf16) (p : Fin 256) (q : Fin 1024) :
    matmul dot_S256x3072_S3072x1024_S256x1024_1_0_0_1_n_n none x w (constant (F := Ideal) S256x1024 .f32 0x00000000#32) (ix2 p q)
      = ∑ k : Fin 3072, x (ix2 p k) * w (ix2 k q) := by
  refine (Ideal.matmul_constant_zero_apply dot_S256x3072_S3072x1024_S256x1024_1_0_0_1_n_n none x w (ix2 p q)).trans ?_
  rw [← Equiv.sum_comp (contrEquiv1 dot_S256x3072_S3072x1024_S256x1024_1_0_0_1_n_n 3072 rfl rfl).symm]
  refine Finset.sum_congr rfl fun k _ => ?_
  have hk := contrEquiv1_symm_val dot_S256x3072_S3072x1024_S256x1024_1_0_0_1_n_n 3072 rfl rfl k
  have el : dot_S256x3072_S3072x1024_S256x1024_1_0_0_1_n_n.lhsIdx (ix2 p q) ((contrEquiv1 dot_S256x3072_S3072x1024_S256x1024_1_0_0_1_n_n 3072 rfl rfl).symm k) = ix2 p k := funext fun a => Fin.ext (by
    match a with
    | ⟨0, _⟩ => exact lhs_xw1_0 _ _
    | ⟨1, _⟩ => exact (lhs_xw1_1 _ _).trans hk)
  have er : dot_S256x3072_S3072x1024_S256x1024_1_0_0_1_n_n.rhsIdx (ix2 p q) ((contrEquiv1 dot_S256x3072_S3072x1024_S256x1024_1_0_0_1_n_n 3072 rfl rfl).symm k) = ix2 k q := funext fun a => Fin.ext (by
    match a with
    | ⟨0, _⟩ => exact (rhs_xw1_0 _ _).trans hk
    | ⟨1, _⟩ => exact rhs_xw1_1 _ _)
  rw [el, er]

theorem lhs_hw2_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_hw2_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_hw2_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_hw2_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The second product into a zero accumulator, at entry (p, q): the sum over the 1024 hidden units. -/
theorem hw2_apply (x : FVec Ideal S256x1024 .bf16) (w : FVec Ideal S1024x1024 .bf16) (p : Fin 256) (q : Fin 1024) :
    matmul dot_S256x1024_S1024x1024_S256x1024_1_0_0_1_n_n none x w (constant (F := Ideal) S256x1024 .f32 0x00000000#32) (ix2 p q)
      = ∑ k : Fin 1024, x (ix2 p k) * w (ix2 k q) := by
  refine (Ideal.matmul_constant_zero_apply dot_S256x1024_S1024x1024_S256x1024_1_0_0_1_n_n none x w (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_hw2_0 _ _
    | ⟨1, _⟩ => exact (lhs_hw2_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_hw2_0 _ _).trans hk
    | ⟨1, _⟩ => exact rhs_hw2_1 _ _)
  rw [el, er]

/-! ## One layer and the stored block at an entry -/

/-- A layer's tail at entry (p, q): a product `M` whose entry is the sum `∑ k, x k · w k`, plus the bias row repeated down
    the block, through x ↦ x·σ(x) (the narrowing to the storage format is the identity on the extended reals), is the
    specification's activation of the dense output. -/
theorem layer_apply {K : ℕ} (M : FVec Ideal S256x1024 .f32) (b : FVec Ideal S1x1024 .f32)
    (hb : S1x1024.Broadcasts S256x1024) (ht : FTy.bits .bf16 < FTy.bits .f32)
    (x w : Fin K → EReal) (p : Fin 256) (q : Fin 1024) (hM : M (ix2 p q) = ∑ k : Fin K, x k * w k) :
    (truncf .bf16 (mulf (addf M (broadcastTo S256x1024 b hb)) (logistic (addf M (broadcastTo S256x1024 b hb)))) ht
        : FVec Ideal S256x1024 .bf16) (ix2 p q)
      = Cert.KGram.silu (Cert.KGram.dense x w (b (ix2 (0 : Fin 1) q))) := by
  show (M (ix2 p q) + broadcastTo S256x1024 b hb (ix2 p q)) * Ideal.logistic (M (ix2 p q) + broadcastTo S256x1024 b hb (ix2 p q)) = _
  rw [broadcastTo_1b_ab_apply b hb p q, hM]
  rfl

/-- The block a grid point stores, at row p and column q, from the blocks it loaded: the second hidden layer computed
    from row p of the loaded rows of X. -/
theorem stored_apply (x0 : Vec Ideal S256x3072 .bf16) (x1 : Vec Ideal S3072x1024 .bf16) (x2 : Vec Ideal S1x1024 .f32)
    (x3 : Vec Ideal S1024x1024 .bf16) (x4 : Vec Ideal S1x1024 .f32) (p : Fin 256) (q : Fin 1024) :
    k0_pay1 (F := Ideal) x0 x1 x2 x3 x4 (ix2 p q)
      = Cert.KGram.silu (Cert.KGram.dense
          (fun j : Fin 1024 => Cert.KGram.silu (Cert.KGram.dense (fun i : Fin 3072 => x0 (ix2 p i)) (fun i : Fin 3072 => x1 (ix2 i j)) (x2 (ix2 (0 : Fin 1) j))))
          (fun j : Fin 1024 => x3 (ix2 j q)) (x4 (ix2 (0 : Fin 1) q))) := by
  unfold k0_pay1
  simp only [shapeCast_self]
  refine (layer_apply _ x4 _ _ _ (fun j : Fin 1024 => x3 (ix2 j q)) p q (hw2_apply _ x3 p q)).trans ?_
  refine congrArg Cert.KGram.silu (congrArg (fun f : Fin 1024 → EReal => Cert.KGram.dense f (fun j : Fin 1024 => x3 (ix2 j q)) (x4 (ix2 (0 : Fin 1) q))) (funext fun j => ?_))
  exact layer_apply _ x2 _ _ (fun i : Fin 3072 => x0 (ix2 p i)) (fun i : Fin 3072 => x1 (ix2 i j)) p j (xw1_apply x0 x1 p j)

/-- The stored block at row p and column q is the specification's second hidden layer at row n and column o, as soon as
    the loaded blocks are what the specification reads there: row p of the X block is row n of X, the weight and bias
    blocks are the whole arrays, and q is o. -/
theorem stored_eq_hid2 (x0 : Vec Ideal S256x3072 .bf16) (x1 : Vec Ideal S3072x1024 .bf16) (x2 : Vec Ideal S1x1024 .f32)
    (x3 : Vec Ideal S1024x1024 .bf16) (x4 : Vec Ideal S1x1024 .f32)
    (X : Fin 4096 → Fin 3072 → EReal) (W1 : Fin 3072 → Fin 1024 → EReal) (b1 : Fin 1024 → EReal)
    (W2 : Fin 1024 → Fin 1024 → EReal) (b2 : Fin 1024 → EReal) (p : Fin 256) (q : Fin 1024) (n : Fin 4096) (o : Fin 1024)
    (hx : ∀ i : Fin 3072, x0 (ix2 p i) = X n i) (hw1 : ∀ (i : Fin 3072) (j : Fin 1024), x1 (ix2 i j) = W1 i j)
    (hb1 : ∀ j : Fin 1024, x2 (ix2 (0 : Fin 1) j) = b1 j) (hw2 : ∀ j : Fin 1024, x3 (ix2 j q) = W2 j o)
    (hb2 : x4 (ix2 (0 : Fin 1) q) = b2 o) :
    k0_pay1 (F := Ideal) x0 x1 x2 x3 x4 (ix2 p q) = Cert.KGram.hid2 X W1 b1 W2 b2 n o := by
  refine (stored_apply x0 x1 x2 x3 x4 p q).trans ?_
  unfold Cert.KGram.hid2 Cert.KGram.hid1
  simp only [hx, hw1, hb1, hw2, hb2]

/-! ## From the 16 stored blocks to the array -/

variable (V : (c : Dev nD) → (b : Ref sig .tc) → Buf (Elt Ideal) ((c : Thread nD τ).loc b))

/-- Region 0's five input arrays at their literal types. -/
abbrev xA (c : Dev nD) : Vec Ideal S4096x3072 .bf16 := V c main_v17
abbrev w1A (c : Dev nD) : Vec Ideal S3072x1024 .bf16 := V c main_v18
abbrev b1A (c : Dev nD) : Vec Ideal S1x1024 .f32 := V c main_v21
abbrev w2A (c : Dev nD) : Vec Ideal S1024x1024 .bf16 := V c main_v19
abbrev b2A (c : Dev nD) : Vec Ideal S1x1024 .f32 := V c main_v22

/-- The whole [4096, 1024] array the region leaves: the second hidden layer of the five input arrays, entry by entry. -/
def hid2A (c : Dev nD) : Vec Ideal S4096x1024 .bf16 := fun i =>
  Cert.KGram.hid2 (fun n i => xA V c (ix2 n i)) (fun i j => w1A V c (ix2 i j)) (fun j => b1A V c (ix2 (0 : Fin 1) j))
    (fun j o => w2A V c (ix2 j o)) (fun o => b2A V c (ix2 (0 : Fin 1) o)) ⟨(i 0).val, (i 0).isLt⟩ ⟨(i 1).val, (i 1).isLt⟩

theorem hid2A_apply (c : Dev nD) (i : S4096x1024.Idx) (n : Fin 4096) (o : Fin 1024) (h0 : (i 0).val = n.val) (h1 : (i 1).val = o.val) :
    hid2A V c i = Cert.KGram.hid2 (fun n i => xA V c (ix2 n i)) (fun i j => w1A V c (ix2 i j)) (fun j => b1A V c (ix2 (0 : Fin 1) j))
      (fun j o => w2A V c (ix2 j o)) (fun o => b2A V c (ix2 (0 : Fin 1) o)) n o := by
  have e : i = ix2 n o := funext fun a => Fin.ext (by
    match a with
    | ⟨0, _⟩ => exact h0
    | ⟨1, _⟩ => exact h1)
  subst e
  rfl

theorem hzA : (![0, 0] : Fin 2 → Nat) = fun _ => 0 := funext fun a => by fin_cases a <;> rfl

/-- The windows' block indices at each of the 16 grid points: the X window and the output window sit at block row t, column 0; the
    weight and bias windows are always at block (0, 0). -/
theorem idx_factsA : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the X block at point t is row 256·t + p of X. -/
theorem xblk_apply (c : Dev nD) (t : Fin cfg0.N) (p : Fin 256) (i : Fin 3072) (n : Fin 4096) (hn : n.val = t.val * 256 + p.val) :
    (iblk0 V c 0 t : Vec Ideal S256x3072 .bf16) (ix2 p i) = xA V c (ix2 n i) := by
  obtain ⟨e0, e1, -⟩ := idx_factsA t
  unfold iblk0
  rw [View.read_apply]
  show V c main_v17 _ = V c main_v17 _
  congr 1
  funext a
  apply Fin.ext
  match a with
  | ⟨0, _⟩ => show win0_0.index t (0 : Fin 2) * 256 + 1 * p.val = n.val; rw [e0, hn]; omega
  | ⟨1, _⟩ => show win0_0.index t (1 : Fin 2) * 3072 + 1 * i.val = i.val; rw [e1]; omega

/-- The W1 block at any point is W1. -/
theorem w1blk_apply (c : Dev nD) (t : Fin cfg0.N) (i : Fin 3072) (j : Fin 1024) :
    (iblk0 V c 1 t : Vec Ideal S3072x1024 .bf16) (ix2 i j) = w1A V c (ix2 i j) := by
  obtain ⟨-, -, e0, e1, -⟩ := idx_factsA t
  unfold iblk0
  rw [View.read_apply]
  show V c main_v18 _ = V c main_v18 _
  congr 1
  funext a
  apply Fin.ext
  match a with
  | ⟨0, _⟩ => show win0_1.index t (0 : Fin 2) * 3072 + 1 * i.val = i.val; rw [e0]; omega
  | ⟨1, _⟩ => show win0_1.index t (1 : Fin 2) * 1024 + 1 * j.val = j.val; rw [e1]; omega

/-- The b1 block at any point is b1. -/
theorem b1blk_apply (c : Dev nD) (t : Fin cfg0.N) (j : Fin 1024) :
    (iblk0 V c 2 t : Vec Ideal S1x1024 .f32) (ix2 (0 : Fin 1) j) = b1A V c (ix2 (0 : Fin 1) j) := by
  obtain ⟨-, -, -, -, e0, e1, -⟩ := idx_factsA t
  unfold iblk0
  rw [View.read_apply]
  show V c main_v21 _ = V c main_v21 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 1024 + 1 * j.val = j.val; rw [e1]; omega

/-- The W2 block at any point is W2. -/
theorem w2blk_apply (c : Dev nD) (t : Fin cfg0.N) (j : Fin 1024) (o : Fin 1024) :
    (iblk0 V c 3 t : Vec Ideal S1024x1024 .bf16) (ix2 j o) = w2A V c (ix2 j o) := by
  obtain ⟨-, -, -, -, -, -, e0, e1, -⟩ := idx_factsA t
  unfold iblk0
  rw [View.read_apply]
  show V c main_v19 _ = V c main_v19 _
  congr 1
  funext a
  apply Fin.ext
  match a with
  | ⟨0, _⟩ => show win0_3.index t (0 : Fin 2) * 1024 + 1 * j.val = j.val; rw [e0]; omega
  | ⟨1, _⟩ => show win0_3.index t (1 : Fin 2) * 1024 + 1 * o.val = o.val; rw [e1]; omega

/-- The b2 block at any point is b2. -/
theorem b2blk_apply (c : Dev nD) (t : Fin cfg0.N) (o : Fin 1024) :
    (iblk0 V c 4 t : Vec Ideal S1x1024 .f32) (ix2 (0 : Fin 1) o) = b2A V c (ix2 (0 : Fin 1) o) := by
  obtain ⟨-, -, -, -, -, -, -, -, e0, e1, -⟩ := idx_factsA t
  unfold iblk0
  rw [View.read_apply]
  show V c main_v22 _ = V c main_v22 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * o.val = o.val; rw [e1]; omega

/-- Two functions on a [256, 1024] block agree when they agree at every (row, column). -/
theorem blk_ext {α : Type} (f g : S256x1024.Idx → α) (h : ∀ (p : Fin 256) (q : Fin 1024), f (ix2 p q) = g (ix2 p q)) : f = g :=
  funext fun y => by rw [eq_ix2 y]; exact h _ _

/-- What point t writes back is block t of the second hidden layer of the input arrays: rows 256·t … 256·t + 255. -/
theorem flushedA_eq (c : Dev nD) (t : Fin cfg0.N) :
    (dat0 (F := Ideal) V c).flushed 5 t = ((cfg0.win 5).blk t).view.read (Elt Ideal) (hid2A V c) := by
  show (cfg0.win 5).cut (grid0.coords t) ((dat0 (F := Ideal) V c).after 5 t) = _
  rw [after0_5]
  unfold out0_5
  rw [View.canon_unit_zero hzA]
  simp only [View.ld_unit_zero (S := S256x3072) hzA, View.ld_unit_zero (S := S3072x1024) hzA, View.ld_unit_zero (S := S1x1024) hzA,
    View.ld_unit_zero (S := S1024x1024) hzA]
  obtain ⟨-, -, -, -, -, -, -, -, -, -, e0, e1⟩ := idx_factsA t
  have ht : t.val < 16 := Nat.lt_of_lt_of_eq t.isLt N_0
  refine blk_ext _ _ fun p q => ?_
  show k0_pay1 (F := Ideal) (iblk0 V c 0 t) (iblk0 V c 1 t) (iblk0 V c 2 t) (iblk0 V c 3 t) (iblk0 V c 4 t) (ix2 p q)
    = hid2A V c (((cfg0.win 5).blk t).view.emb (ix2 p q))
  have hp : p.val < 256 := p.isLt
  rw [hid2A_apply V c _ (⟨t.val * 256 + p.val, by omega⟩ : Fin 4096) q
    (by show win0_5.index t (0 : Fin 2) * 256 + 1 * p.val = t.val * 256 + p.val; rw [e0]; omega)
    (by show win0_5.index t (1 : Fin 2) * 1024 + 1 * q.val = q.val; rw [e1]; omega)]
  exact stored_eq_hid2 (iblk0 V c 0 t) (iblk0 V c 1 t) (iblk0 V c 2 t) (iblk0 V c 3 t) (iblk0 V c 4 t) _ _ _ _ _ p q _ q
    (fun i => xblk_apply V c t p i _ rfl) (fun i j => w1blk_apply V c t i j) (fun j => b1blk_apply V c t j)
    (fun j => w2blk_apply V c t j q) (b2blk_apply V c t q)

/-- An index of the array is in point t's block iff each coordinate is in the block's range on its axis. -/
theorem mem_blkA (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v23).slice (win0_5.rect t)).set ↔ _
  rw [View.set_slice_whole, Rect.mem_set_unit]
  exact Iff.rfl

/-- Every entry of the array is in some point's block: row r in the block of point r / 256. -/
theorem coverA (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := idx_factsA t
  refine ⟨t, flush0_5 t, ?_⟩
  rw [mem_blkA]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 1024 ≤ (i 1).val ∧ (i 1).val < win0_5.index t (1 : Fin 2) * 1024 + 1024; rw [e1]; omega

/-- The output array after the whole region: every entry is the specification's second hidden layer of the region's
    five input arrays. -/
theorem finalA (c : Dev nD) (n : Fin 4096) (o : Fin 1024) :
    ((dat0 (F := Ideal) V c).arrAt 5 cfg0.N : Vec Ideal S4096x1024 .bf16) (ix2 n o)
      = Cert.KGram.hid2 (fun n i => xA V c (ix2 n i)) (fun i j => w1A V c (ix2 i j)) (fun j => b1A V c (ix2 (0 : Fin 1) j))
          (fun j o => w2A V c (ix2 j o)) (fun o => b2A V c (ix2 (0 : Fin 1) o)) n o := by
  have h := (dat0 (F := Ideal) V c).arrAt_eq_of_cover 5 (hid2A V c) (fun t _ => flushedA_eq V c t) coverA
  exact (congrFun h (ix2 n o)).trans (hid2A_apply V c (ix2 n o) n o rfl rfl)

end Cert.KernelIdeal.Hand

end
-- ==== Proof.KI.ValB.lean ====
/-
  The value of the second kernel region's output array after the whole region, on the extended reals.

  The region walks a 25 × 8 grid, column block v outer and row block n inner. At a point it takes rows 512n … 512n + 511
  of the hidden array H [4096, 1024], columns 2048v … 2048v + 2047 of the padded weights W [1024, 51200] and of the padded
  bias b [1, 51200], and stores the 512 × 2048 block  H_block · W_slab + b_slab  at block (n, v) of the output
  [4096, 51200]. Entry (p, q) of that block is  Σ_k H(512n + p, k) · W(k, 2048v + q) + b(2048v + q): the entry
  (512n + p, 2048v + q) of the one function  (r, s) ↦ Σ_k H(r, k) · W(k, s) + b(s). The 200 blocks tile the array — entry
  (r, s) lies in the block of the point 8·(s / 2048) + r / 512 — so after the last write-back the array is that function.
  No law of arithmetic is used: each entry is the same sum, over the same index, of the same products.
-/
import proofs.«109752_j56925496541497_1_alg».proof.Proof.KI.RegionB
import proofs.«109752_j56925496541497_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## One block of the projection, entry by entry -/

/-- On the left operand of the block product, the row axis of an entry's index is the output entry's row. -/
theorem lhsB_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- and its column axis is the summation index; -/
theorem lhsB_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
/-- on the right operand the row axis is the summation index -/
theorem rhsB_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
/-- and the column axis is the output entry's column. -/
theorem rhsB_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The block product into a zero accumulator, at entry (p, q): the inner product of row p of the left block with
    column q of the right block, over the 1024 hidden units. -/
theorem blockProductB_apply (x0 : FVec Ideal S512x1024 .bf16) (x1 : FVec Ideal S1024x2048 .bf16) (p : Fin 512) (q : Fin 2048) :
    FloatOps.matmul dot_S512x1024_S1024x2048_S512x2048_1_0_0_1_n_n none x0 x1 (constant (F := Ideal) S512x2048 .f32 0x00000000#32) (ix2 p q)
      = ∑ k : Fin 1024, x0 (ix2 p k) * x1 (ix2 k q) := by
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p q) ((contrEquiv1 dot_S512x1024_S1024x2048_S512x2048_1_0_0_1_n_n 1024 rfl rfl).symm k) = ix2 p k := funext fun a => Fin.ext (by
    match a with
    | ⟨0, _⟩ => exact lhsB_0 _ _
    | ⟨1, _⟩ => exact (lhsB_1 _ _).trans hk)
  have er : dot_S512x1024_S1024x2048_S512x2048_1_0_0_1_n_n.rhsIdx (ix2 p q) ((contrEquiv1 dot_S512x1024_S1024x2048_S512x2048_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-- What the body stores at entry (p, q) of its block: the inner product of row p of the hidden block with column q of the
    weight slab, plus the slab's bias at q. -/
theorem payB_apply (x0 : FVec Ideal S512x1024 .bf16) (x1 : FVec Ideal S1024x2048 .bf16) (x2 : FVec Ideal S1x2048 .f32) (p : Fin 512) (q : Fin 2048) :
    k1_pay1 (F := Ideal) x0 x1 x2 (ix2 p q) = (∑ k : Fin 1024, x0 (ix2 p k) * x1 (ix2 k q)) + x2 (ix2 (0 : Fin 1) q) := by
  unfold k1_pay1
  simp only [shapeCast_self]
  refine (addf_apply _ _ (ix2 p q)).trans ?_
  refine congrArg₂ (· + ·) (blockProductB_apply x0 x1 p q) ?_
  exact broadcastTo_1b_ab_apply x2 broadcasts_S1x2048_S512x2048 p q

/-! ## The whole array of logits -/

/-- The padded logits as one function of the hidden array, the padded weights and the padded bias: entry (n, v) is the
    inner product of hidden row n with weight column v, plus the bias at v. -/
def logitsB (Hd : Vec Ideal S4096x1024 .bf16) (Wo : Vec Ideal S1024x51200 .bf16) (Bo : Vec Ideal S1x51200 .f32) :
    Vec Ideal S4096x51200 .f32 := fun i =>
  Cert.KGram.proj (fun n k => Hd (ix2 n k)) (fun k v => Wo (ix2 k v)) (fun v => Bo (ix2 (0 : Fin 1) v))
    ⟨(i 0).val, idx2_lt0 i⟩ ⟨(i 1).val, idx2_lt1 i⟩

/-- Entry (p, q) of a stored block is entry i of the whole array of logits, when row p of the hidden block is row i₀ of
    the hidden array, column q of the weight slab is column i₁ of the weights, and the slab's bias at q is the bias at i₁. -/
theorem blockB_entry (Hd : Vec Ideal S4096x1024 .bf16) (Wo : Vec Ideal S1024x51200 .bf16) (Bo : Vec Ideal S1x51200 .f32)
    (x0 : Vec Ideal S512x1024 .bf16) (x1 : Vec Ideal S1024x2048 .bf16) (x2 : Vec Ideal S1x2048 .f32)
    (p : Fin 512) (q : Fin 2048) (i : S4096x51200.Idx)
    (h0 : ∀ k : Fin 1024, x0 (ix2 p k) = Hd (ix2 (⟨(i 0).val, idx2_lt0 i⟩ : Fin 4096) k))
    (h1 : ∀ k : Fin 1024, x1 (ix2 k q) = Wo (ix2 k (⟨(i 1).val, idx2_lt1 i⟩ : Fin 51200)))
    (h2 : x2 (ix2 (0 : Fin 1) q) = Bo (ix2 (0 : Fin 1) (⟨(i 1).val, idx2_lt1 i⟩ : Fin 51200))) :
    k1_pay1 (F := Ideal) x0 x1 x2 (ix2 p q) = logitsB Hd Wo Bo i := by
  refine (payB_apply x0 x1 x2 p q).trans ?_
  unfold logitsB Cert.KGram.proj Cert.KGram.dense
  rw [h2]
  exact congrArg (· + _) (Finset.sum_congr rfl fun k _ => by rw [h0 k, h1 k])

-- the device's buffer contents when the region is entered
variable (V : (c : Dev nD) → (b : Ref sig .tc) → Buf (Elt Ideal) ((c : Thread nD τ).loc b))

/-- Region 1's three input arrays at their literal types. -/
abbrev hB (c : Dev nD) : Vec Ideal S4096x1024 .bf16 := V c main_v23
abbrev woB (c : Dev nD) : Vec Ideal S1024x51200 .bf16 := V c main_v24
abbrev boB (c : Dev nD) : Vec Ideal S1x51200 .f32 := V c main_v26

/-- The zero offsets of a whole-block rectangle, as the constant function. -/
theorem zeroOffsetsB : (![0, 0] : Fin 2 → Nat) = fun _ => 0 := funext fun a => by fin_cases a <;> rfl

/-- The block index maps over the 25 × 8 grid, point t = 8·(column block) + (row block): the output block sits at block
    row t % 8 and block column t / 8; the hidden block shares its block row and has block column 0; the weight slab and the
    bias slab share its block column and have block row 0. -/
theorem blockIndicesB : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) = t.val % 8 ∧ win1_3.index t (1 : Fin 2) = t.val / 8 :=
  (by decide +kernel : ∀ t : Fin grid1.N, _)

/-- What point t writes back is its block of the whole array of logits: an element of a block sits in its array, on each
    axis, at block index × block size + its coordinate inside the block. -/
theorem flushedB_eq (c : Dev nD) (t : Fin cfg1.N) :
    (dat1 (F := Ideal) V c).flushed 3 t
      = ((cfg1.win 3).blk t).view.read (Elt Ideal) (logitsB (hB V c) (woB V c) (boB V c)) := by
  show (cfg1.win 3).cut (grid1.coords t) ((dat1 (F := Ideal) V c).after 3 t) = _
  rw [after1_3]
  unfold out1_3
  rw [View.canon_unit_zero zeroOffsetsB]
  simp only [View.ld_unit_zero (S := S512x1024) zeroOffsetsB, View.ld_unit_zero (S := S1024x2048) zeroOffsetsB, View.ld_unit_zero (S := S1x2048) zeroOffsetsB]
  obtain ⟨e00, e01, e10, e11, e20, e21, -, -⟩ := blockIndicesB t
  funext j
  obtain ⟨p, q, rfl⟩ : ∃ (p : Fin 512) (q : Fin 2048), j = ix2 p q := ⟨j 0, j 1, eq_ix2 j⟩
  show k1_pay1 (F := Ideal) (iblk1 V c 0 t) (iblk1 V c 1 t) (iblk1 V c 2 t) (ix2 p q)
    = logitsB (hB V c) (woB V c) (boB V c) (((cfg1.win 3).blk t).view.emb (ix2 p q))
  refine blockB_entry (hB V c) (woB V c) (boB V c) (iblk1 V c 0 t) (iblk1 V c 1 t) (iblk1 V c 2 t) p q
    (((cfg1.win 3).blk t).view.emb (ix2 p q)) (fun k => ?_) (fun k => ?_) ?_
  · show hB V c (((cfg1.win 0).blk t).view.emb (ix2 p k)) = hB V c (ix2 _ k)
    refine congrArg (hB V c) (funext fun a => Fin.ext ?_)
    match a with
    | ⟨0, _⟩ => show win1_0.index t (0 : Fin 2) * 512 + 1 * p.val = win1_3.index t (0 : Fin 2) * 512 + 1 * p.val; rw [e00]
    | ⟨1, _⟩ => show win1_0.index t (1 : Fin 2) * 1024 + 1 * k.val = k.val; rw [e01]; omega
  · show woB V c (((cfg1.win 1).blk t).view.emb (ix2 k q)) = woB V c (ix2 k _)
    refine congrArg (woB V c) (funext fun a => Fin.ext ?_)
    match a with
    | ⟨0, _⟩ => show win1_1.index t (0 : Fin 2) * 1024 + 1 * k.val = k.val; rw [e10]; omega
    | ⟨1, _⟩ => show win1_1.index t (1 : Fin 2) * 2048 + 1 * q.val = win1_3.index t (1 : Fin 2) * 2048 + 1 * q.val; rw [e11]
  · show boB V c (((cfg1.win 2).blk t).view.emb (ix2 (0 : Fin 1) q)) = boB V c (ix2 (0 : Fin 1) _)
    refine congrArg (boB V c) (funext fun a => Fin.ext ?_)
    match a with
    | ⟨0, _⟩ => show win1_2.index t (0 : Fin 2) * 1 + 1 * 0 = 0; rw [e20]
    | ⟨1, _⟩ => show win1_2.index t (1 : Fin 2) * 2048 + 1 * q.val = win1_3.index t (1 : Fin 2) * 2048 + 1 * q.val; rw [e21]

/-- An entry of the array is in point t's block iff, on each axis, its coordinate is in the block's range. -/
theorem mem_blockB (t : Fin cfg1.N) (i : S4096x51200.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v27).slice (win1_3.rect t)).set ↔ _
  rw [View.set_slice_whole, Rect.mem_set_unit]
  exact Iff.rfl

/-- The 8 × 25 blocks tile the array: entry (r, s) is in the block of the point 8·(s / 2048) + r / 512, and every point
    writes its block back. -/
theorem coveredB (i : S4096x51200.Idx) :
    ∃ t : Fin cfg1.N, (cfg1.win 3).flush t = true ∧ i ∈ ((cfg1.win 3).blk t).view.set := by
  have hr : (i 0).val < 4096 := idx2_lt0 i
  have hs : (i 1).val < 51200 := idx2_lt1 i
  have hN : cfg1.N = 200 := N_1
  let t : Fin cfg1.N := ⟨8 * ((i 1).val / 2048) + (i 0).val / 512, by rw [hN]; omega⟩
  obtain ⟨-, -, -, -, -, -, e30, e31⟩ := blockIndicesB t
  have ht : t.val = 8 * ((i 1).val / 2048) + (i 0).val / 512 := rfl
  refine ⟨t, flush1_3 t, ?_⟩
  rw [mem_blockB]
  intro a
  match a with
  | ⟨0, _⟩ => show win1_3.index t (0 : Fin 2) * 512 ≤ (i 0).val ∧ (i 0).val < win1_3.index t (0 : Fin 2) * 512 + 512; rw [e30, ht]; omega
  | ⟨1, _⟩ => show win1_3.index t (1 : Fin 2) * 2048 ≤ (i 1).val ∧ (i 1).val < win1_3.index t (1 : Fin 2) * 2048 + 2048; rw [e31, ht]; omega

/-- After the whole region, every entry of the output array is the projection of the region's three input arrays. -/
theorem finalB (c : Dev nD) (n : Fin 4096) (v : Fin 51200) :
    ((dat1 (F := Ideal) V c).arrAt 3 cfg1.N : Vec Ideal S4096x51200 .f32) (ix2 n v)
      = Cert.KGram.proj (fun n k => hB V c (ix2 n k)) (fun k v => woB V c (ix2 k v)) (fun v => boB V c (ix2 (0 : Fin 1) v)) n v :=
  congrFun ((dat1 (F := Ideal) V c).arrAt_eq_of_cover 3 (logitsB (hB V c) (woB V c) (boB V c)) (fun t _ => flushedB_eq V c t) coveredB) (ix2 n v)

end Cert.KernelIdeal.Hand

end
-- ==== Proof.KI.Layout.lean ====
/-
  The host's layout operations around the two kernel regions, read at an index on the extended reals.

  Before the first region the embedded token windows X4[s, b, k, e] are flattened to rows: row n = 2·s + b, column
  i = 1024·k + e, so entry (n, i) of the flattened array is X4[n / 2, n % 2, i / 1024, i % 1024]; rounding to a narrower
  float is the identity on the extended reals. A bias of 1024 numbers becomes a matrix with one row. The output weights
  and the output bias get 943 more vocabulary columns (50257 → 51200); a column below 50257 is untouched by that. After
  the second region the 943 columns are cut off again and row n = 2·s + b becomes the pair (s, b).

  Every statement is over variables: no program state and no memory appear here.
-/
import proofs.«109752_j56925496541497_1_alg».proof.KernelIdeal
import proofs.«109752_j56925496541497_1_alg».proof.Proof.Gen.KernelIdeal
import proofs.«109752_j56925496541497_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.ValueIdx

/-- Row n, column i of the embedded windows reshaped [2048,2,3,1024] → [4096,3072] (and rounded to bf16: the identity
    on the extended reals). Both indices have row-major position 3072·n + i. -/
theorem rows_apply (X4 : FVec Ideal S2048x2x3x1024 .f32) (n : Fin 4096) (i : Fin 3072) :
    (truncf .bf16 (shapeCast S4096x3072 X4 shapeCasts_S2048x2x3x1024_S4096x3072) bitsLt_bf16_f32
      : FVec Ideal S4096x3072 .bf16) (ix2 n i) = Cert.KGram.rowsOf X4 n i := by
  rw [truncf_apply]
  unfold Cert.KGram.rowsOf
  refine shapeCast_apply X4 _ _ _ ?_
  rw [Shape.rowMajor_val_four, Shape.rowMajor_val_two]
  have hn : n.val < 4096 := n.isLt
  have hi : i.val < 3072 := i.isLt
  show ((n.val / 2 * 2 + n.val % 2) * 3 + i.val / 1024) * 1024 + i.val % 1024 = n.val * 3072 + i.val
  omega

/-- A bias reshaped [1024] → [1,1024], read in its one row. -/
theorem bias_row_apply (b : FVec Ideal S1024 .f32) (j : Fin 1024) :
    (shapeCast S1x1024 b shapeCasts_S1024_S1x1024 : FVec Ideal S1x1024 .f32) (ix2 (0 : Fin 1) j) = b (ix1 j) :=
  shapeCast_a_1a_apply b shapeCasts_S1024_S1x1024 (0 : Fin 1) j

/-- The output weights padded with 943 columns on the right, read at a column below 50257: no padding in front and
    none between entries, so the entry is the operand's own. -/
theorem padW_apply (x : FVec Ideal S1024x50257 .bf16) (z : FVec Ideal S_ .bf16) (k : Fin 1024) (v : Fin 50257) :
    (pad S1024x51200 ![0, 0] ![0, 943] ![0, 0] x z pads_S1024x50257_S1024x51200_000_09430 h_S_
      : FVec Ideal S1024x51200 .bf16) (ix2 k (⟨v.val, by have := v.isLt; omega⟩ : Fin 51200)) = x (ix2 k v) :=
  pad_apply_of_inside _ _ _ x z pads_S1024x50257_S1024x51200_000_09430 h_S_ _ (ix2 k v) (fun a => by
    match a with
    | ⟨0, _⟩ => show k.val = 0 + k.val * (0 + 1); omega
    | ⟨1, _⟩ => show v.val = 0 + v.val * (0 + 1); omega)

/-- The output bias padded with 943 entries and reshaped to one row, read at a column below 50257. -/
theorem padB_apply (x : FVec Ideal S50257 .f32) (z : FVec Ideal S_ .f32) (v : Fin 50257) :
    (shapeCast S1x51200 (pad S51200 ![0] ![943] ![0] x z pads_S50257_S51200_09430 h_S_) shapeCasts_S51200_S1x51200
      : FVec Ideal S1x51200 .f32) (ix2 (0 : Fin 1) (⟨v.val, by have := v.isLt; omega⟩ : Fin 51200)) = x (ix1 v) := by
  refine (shapeCast_a_1a_apply _ shapeCasts_S51200_S1x51200 (0 : Fin 1) _).trans ?_
  exact pad_apply_of_inside _ _ _ x z pads_S50257_S51200_09430 h_S_ _ (ix1 v) (fun a => by
    match a with
    | ⟨0, _⟩ => show v.val = 0 + v.val * (0 + 1); omega)

/-- The padded logits sliced to 50257 columns and reshaped [4096,50257] → [2048,2,50257]: entry (s, b, v) has row-major
    position 50257·(2·s + b) + v, which is entry (2·s + b, v) of the slice, and the slice starts at column 0. -/
theorem unpad_apply (Y : FVec Ideal S4096x51200 .f32) (s : Fin 2048) (b : Fin 2) (v : Fin 50257) :
    (shapeCast S2048x2x50257 (extractStridedSlice S4096x50257 ![0, 0] Y slices_S4096x51200_S4096x50257_0_0)
        shapeCasts_S4096x50257_S2048x2x50257 : FVec Ideal S2048x2x50257 .f32) (ix3 s b v)
      = Y (ix2 (Cert.KGram.rowOf s b) (⟨v.val, by have := v.isLt; omega⟩ : Fin 51200)) := by
  refine (shapeCast_apply _ shapeCasts_S4096x50257_S2048x2x50257 (ix3 s b v) (ix2 (Cert.KGram.rowOf s b) v) ?_).trans ?_
  · rw [Shape.rowMajor_val_two, Shape.rowMajor_val_three]
    show (s.val * 2 + b.val) * 50257 + v.val = (s.val * 2 + b.val) * 50257 + v.val
    rfl
  · exact slice2_axis1_apply 0 Y slices_S4096x51200_S4096x50257_0_0 (Cert.KGram.rowOf s b) v _ (by
      show v.val = 0 + v.val; omega)

end Cert.KernelIdeal.Hand

end
-- ==== Proof.RefVal.lean ====
/-
  The reference program's result, read entry by entry on the extended reals.

  The reference embeds the token windows into an array X4[s, b, k, e], flattens the last two axes
  (column i = 1024·k + e), and applies two dense layers with the activation x ↦ x·σ(x) and the output
  projection, all on arrays indexed by (s, b, ·).  Its activation is spelt x · (1 / (1 + e^(-x))), which is
  x·σ(x) by the definition of σ.  Reading each stage at an index (s, b, ·) gives, layer by layer, exactly the
  sums of the specification at the row n = 2·s + b; no law of arithmetic is needed beyond unfolding.
-/
import proofs.«109752_j56925496541497_1_alg».proof.Proof.Gen.ReferenceIdeal.Read
import proofs.«109752_j56925496541497_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ### Index equations: where each stage reads its operands -/

/-- Flattening: entry (s, b, i) of the flattened array is entry (s, b, i / 1024, i % 1024) of X4; written with
    the row number n = 2·s + b it is (n / 2, n % 2, i / 1024, i % 1024). -/
private theorem flatten_idx (s : Fin 2048) (b : Fin 2) (i : Fin 3072) :
    idx_main_v16 (ix3 s b i)
      = ix4 (⟨(s.val * 2 + b.val) / 2, by have := s.isLt; have := b.isLt; omega⟩ : Fin 2048)
          (⟨(s.val * 2 + b.val) % 2, by omega⟩ : Fin 2)
          (⟨i.val / 1024, by have := i.isLt; omega⟩ : Fin 3) (⟨i.val % 1024, by omega⟩ : Fin 1024) := by
  funext a
  match a with
  | ⟨0, _⟩ =>
    exact Fin.ext (by
      show ((s.val * 2 + b.val) * 3072 + i.val) / 6144 = (s.val * 2 + b.val) / 2
      have := i.isLt; omega)
  | ⟨1, _⟩ =>
    exact Fin.ext (by
      show ((s.val * 2 + b.val) * 3072 + i.val) / 3072 % 2 = (s.val * 2 + b.val) % 2
      have := i.isLt; omega)
  | ⟨2, _⟩ =>
    exact Fin.ext (by
      show ((s.val * 2 + b.val) * 3072 + i.val) / 1024 % 3 = i.val / 1024
      have := i.isLt; omega)
  | ⟨3, _⟩ =>
    exact Fin.ext (by
      show ((s.val * 2 + b.val) * 3072 + i.val) % 1024 = i.val % 1024
      omega)

/-- The flattened array at (s, b, i) is the specification's row 2·s + b at column i. -/
private theorem flat_apply (x0 : (⟨S2048x2, .i32⟩ : BufTy).Contents (Elt Ideal))
    (x1 : (⟨S50257x1024, .f32⟩ : BufTy).Contents (Elt Ideal)) (s : Fin 2048) (b : Fin 2) (i : Fin 3072) :
    val_main_v16 (F := Ideal) x0 x1 (ix3 s b i)
      = Cert.KGram.rowsOf (val_main_v15 (F := Ideal) x0 x1) (Cert.KGram.rowOf s b) i := by
  rw [val_main_v16_apply, flatten_idx]
  rfl

/-- The first product contracts the flattened row (s, b, ·) … -/
private theorem lhs1_idx (s : Fin 2048) (b : Fin 2) (j : Fin 1024) (k : Fin 3072) :
    lidx_main_v17 (ix3 s b j) k = ix3 s b k := by
  funext a
  match a with
  | ⟨0, _⟩ => rfl
  | ⟨1, _⟩ => rfl
  | ⟨2, _⟩ => rfl

/-- … with column j of the first weight matrix. -/
private theorem rhs1_idx (s : Fin 2048) (b : Fin 2) (j : Fin 1024) (k : Fin 3072) :
    ridx_main_v17 (ix3 s b j) k = ix2 k j := by
  funext a
  match a with
  | ⟨0, _⟩ => rfl
  | ⟨1, _⟩ => rfl

/-- The first bias, broadcast along (s, b), is read at its unit j. -/
private theorem bias1_idx (s : Fin 2048) (b : Fin 2) (j : Fin 1024) :
    idx_main_v18 (idx_main_v19 (ix3 s b j)) = ix1 j := by
  funext a
  match a with
  | ⟨0, _⟩ => rfl

/-- The second product contracts the hidden row (s, b, ·) … -/
private theorem lhs2_idx (s : Fin 2048) (b : Fin 2) (o : Fin 1024) (k : Fin 1024) :
    lidx_main_v22 (ix3 s b o) k = ix3 s b k := by
  funext a
  match a with
  | ⟨0, _⟩ => rfl
  | ⟨1, _⟩ => rfl
  | ⟨2, _⟩ => rfl

/-- … with column o of the second weight matrix. -/
private theorem rhs2_idx (s : Fin 2048) (b : Fin 2) (o : Fin 1024) (k : Fin 1024) :
    ridx_main_v22 (ix3 s b o) k = ix2 k o := by
  funext a
  match a with
  | ⟨0, _⟩ => rfl
  | ⟨1, _⟩ => rfl

/-- The second bias is read at its unit o. -/
private theorem bias2_idx (s : Fin 2048) (b : Fin 2) (o : Fin 1024) :
    idx_main_v23 (idx_main_v24 (ix3 s b o)) = ix1 o := by
  funext a
  match a with
  | ⟨0, _⟩ => rfl

/-- The output projection contracts the second hidden row (s, b, ·) … -/
private theorem lhs3_idx (s : Fin 2048) (b : Fin 2) (v : Fin 50257) (k : Fin 1024) :
    lidx_main_v27 (ix3 s b v) k = ix3 s b k := by
  funext a
  match a with
  | ⟨0, _⟩ => rfl
  | ⟨1, _⟩ => rfl
  | ⟨2, _⟩ => rfl

/-- … with column v of the output matrix. -/
private theorem rhs3_idx (s : Fin 2048) (b : Fin 2) (v : Fin 50257) (k : Fin 1024) :
    ridx_main_v27 (ix3 s b v) k = ix2 k v := by
  funext a
  match a with
  | ⟨0, _⟩ => rfl
  | ⟨1, _⟩ => rfl

/-- The output bias is read at its vocabulary entry v. -/
private theorem bias3_idx (s : Fin 2048) (b : Fin 2) (v : Fin 50257) :
    idx_main_v28 (idx_main_v29 (ix3 s b v)) = ix1 v := by
  funext a
  match a with
  | ⟨0, _⟩ => rfl

/-! ### The activation -/

/-- The reference spells the activation x · (1 / (1 + e^(-x))), the constant 1 being the float pattern of one;
    σ(x) is by definition 1 / (1 + e^(-x)), so this is x·σ(x). -/
private theorem silu_spelt (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = Cert.KGram.silu x := by
  show x * Ideal.div (Ideal.ofBits .f32 0x3F800000#32) (Ideal.ofBits .f32 0x3F800000#32 + Ideal.exp (-x))
    = x * Ideal.div 1 (1 + Ideal.exp (-x))
  rw [Ideal.ofBits_one_f32]

/-! ### The layers -/

section Layers

variable (x0 : (⟨S2048x2, .i32⟩ : BufTy).Contents (Elt Ideal)) (x1 : (⟨S50257x1024, .f32⟩ : BufTy).Contents (Elt Ideal))
  (x2 : (⟨S3072x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x50257, .f32⟩ : BufTy).Contents (Elt Ideal)) (x7 : (⟨S50257, .f32⟩ : BufTy).Contents (Elt Ideal))

/-- First layer before the activation: Σ_i X n i · W1 i j + b1 j at n = 2·s + b. -/
private theorem pre1_apply (s : Fin 2048) (b : Fin 2) (j : Fin 1024) :
    val_main_v20 (F := Ideal) x0 x1 x2 x3 (ix3 s b j)
      = Cert.KGram.dense (Cert.KGram.rowsOf (val_main_v15 (F := Ideal) x0 x1) (Cert.KGram.rowOf s b))
          (fun i => x2 (ix2 i j)) (x3 (ix1 j)) := by
  rw [val_main_v20_apply, val_main_v17_apply, val_main_v19_apply, val_main_v18_apply, bias1_idx, Ideal.addf_def]
  unfold Cert.KGram.dense
  refine congrArg (· + x3 (ix1 j)) (Finset.sum_congr rfl fun k _ => ?_)
  rw [lhs1_idx, rhs1_idx, flat_apply]

/-- First hidden layer: the activation of the above. -/
private theorem hid1_apply (s : Fin 2048) (b : Fin 2) (j : Fin 1024) :
    val_main_v21 (F := Ideal) x0 x1 x2 x3 (ix3 s b j)
      = Cert.KGram.hid1 (Cert.KGram.rowsOf (val_main_v15 (F := Ideal) x0 x1)) (fun i j => x2 (ix2 i j))
          (fun j => x3 (ix1 j)) (Cert.KGram.rowOf s b) j := by
  rw [val_main_v21_apply, val_main_call0_v5_apply, val_main_call0_v4_apply, val_main_call0_cst_0_apply,
    val_main_call0_v3_apply, val_main_call0_v2_apply, val_main_call0_cst_apply, val_main_call0_v1_apply,
    val_main_call0_v0_apply, pre1_apply]
  exact silu_spelt _

/-- Second layer before the activation: Σ_j hid1 n j · W2 j o + b2 o. -/
private theorem pre2_apply (s : Fin 2048) (b : Fin 2) (o : Fin 1024) :
    val_main_v25 (F := Ideal) x0 x1 x2 x3 x4 x5 (ix3 s b o)
      = Cert.KGram.dense (Cert.KGram.hid1 (Cert.KGram.rowsOf (val_main_v15 (F := Ideal) x0 x1)) (fun i j => x2 (ix2 i j))
            (fun j => x3 (ix1 j)) (Cert.KGram.rowOf s b))
          (fun j => x4 (ix2 j o)) (x5 (ix1 o)) := by
  rw [val_main_v25_apply, val_main_v22_apply, val_main_v24_apply, val_main_v23_apply, bias2_idx, Ideal.addf_def]
  unfold Cert.KGram.dense
  refine congrArg (· + x5 (ix1 o)) (Finset.sum_congr rfl fun k _ => ?_)
  rw [lhs2_idx, rhs2_idx, hid1_apply]

/-- Second hidden layer. -/
private theorem hid2_apply (s : Fin 2048) (b : Fin 2) (o : Fin 1024) :
    val_main_v26 (F := Ideal) x0 x1 x2 x3 x4 x5 (ix3 s b o)
      = Cert.KGram.hid2 (Cert.KGram.rowsOf (val_main_v15 (F := Ideal) x0 x1)) (fun i j => x2 (ix2 i j))
          (fun j => x3 (ix1 j)) (fun j o => x4 (ix2 j o)) (fun o => x5 (ix1 o)) (Cert.KGram.rowOf s b) o := by
  rw [val_main_v26_apply, val_main_call1_v5_apply, val_main_call1_v4_apply, val_main_call1_cst_0_apply,
    val_main_call1_v3_apply, val_main_call1_v2_apply, val_main_call1_cst_apply, val_main_call1_v1_apply,
    val_main_call1_v0_apply, pre2_apply]
  exact silu_spelt _

end Layers

/-- Every entry of the reference's result is the specification's logit: at (s, b, v) it is
    Σ_k hid2 n k · Wout k v + bout v with n = 2·s + b. -/
theorem ref_apply (x0 : (⟨S2048x2, .i32⟩ : BufTy).Contents (Elt Ideal)) (x1 : (⟨S50257x1024, .f32⟩ : BufTy).Contents (Elt Ideal))
    (x2 : (⟨S3072x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x50257, .f32⟩ : BufTy).Contents (Elt Ideal)) (x7 : (⟨S50257, .f32⟩ : BufTy).Contents (Elt Ideal))
    (s : Fin 2048) (b : Fin 2) (v : Fin 50257) :
    val_main_v30 (F := Ideal) x0 x1 x2 x3 x4 x5 x6 x7 (ix3 s b v)
      = Cert.KGram.logit (Cert.KGram.rowsOf (val_main_v15 (F := Ideal) x0 x1)) (fun i j => x2 (ix2 i j)) (fun j => x3 (ix1 j))
          (fun j o => x4 (ix2 j o)) (fun o => x5 (ix1 o)) (fun k v => x6 (ix2 k v)) (fun v => x7 (ix1 v)) (Cert.KGram.rowOf s b) v := by
  rw [val_main_v30_apply, val_main_v27_apply, val_main_v29_apply, val_main_v28_apply, bias3_idx, Ideal.addf_def]
  unfold Cert.KGram.logit Cert.KGram.proj Cert.KGram.dense
  refine congrArg (· + x7 (ix1 v)) (Finset.sum_congr rfl fun k _ => ?_)
  rw [lhs3_idx, rhs3_idx, hid2_apply]

end Cert.ReferenceIdeal.RefValue

end
-- ==== Proof.Bridge.lean ====
/-
  The idealized kernel program's result, entry by entry, is the specification's logit of the arguments; so is the
  reference's; hence the two programs end with equal results.

  Entry (s, b, v) of the kernel's result is entry (2·s + b, v) of the padded logits (the slice drops only the 943 padding
  columns, the reshape splits the row number). A padded logit is the projection of the hidden rows by the padded weights
  and bias, which below column 50257 are the weights and bias themselves. The hidden rows are the second hidden layer of
  the flattened embedded windows under the two dense layers (rounding to bf16 is the identity on the extended reals,
  the reshaped biases are read in their one row). That is the specification's logit at row 2·s + b.
-/
import proofs.«109752_j56925496541497_1_alg».proof.Proof.KI.HostVals
import proofs.«109752_j56925496541497_1_alg».proof.Proof.KI.ValA
import proofs.«109752_j56925496541497_1_alg».proof.Proof.KI.ValB
import proofs.«109752_j56925496541497_1_alg».proof.Proof.KI.Layout
import proofs.«109752_j56925496541497_1_alg».proof.Proof.RefVal
import proofs.«109752_j56925496541497_1_alg».proof.Defs
import proofs.«109752_j56925496541497_1_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first region's output array, entry by entry: the second hidden layer of the arguments. -/
theorem hidden_apply (c : Dev nD) (n : Fin 4096) (k : Fin 1024) :
    hB (VB m) c (ix2 n k)
      = Cert.KGram.hid2 (Cert.KGram.rowsOf (emb4 m c))
          (fun i j => (m ((c.tc : Thread nD τ).loc main_arg2) : FVec Ideal S3072x1024 .f32) (ix2 i j))
          (fun j => (m ((c.tc : Thread nD τ).loc main_arg3) : FVec Ideal S1024 .f32) (ix1 j))
          (fun j o => (m ((c.tc : Thread nD τ).loc main_arg4) : FVec Ideal S1024x1024 .f32) (ix2 j o))
          (fun o => (m ((c.tc : Thread nD τ).loc main_arg5) : FVec Ideal S1024 .f32) (ix1 o)) n k := by
  show (VB m c main_v23 : Vec Ideal S4096x1024 .bf16) (ix2 n k) = _
  rw [VB_v23]
  show ((dat0 (F := Ideal) (VA m) c).arrAt 5 cfg0.N : Vec Ideal S4096x1024 .bf16) (ix2 n k) = _
  rw [finalA]
  have hx : (fun (n : Fin 4096) (i : Fin 3072) => xA (VA m) c (ix2 n i)) = Cert.KGram.rowsOf (emb4 m c) := by
    funext n i
    show (Gen.V1 m c (Proc.devRef .tc main_v17) : FVec Ideal S4096x3072 .bf16) (ix2 n i) = _
    rw [V1_v17]; exact rows_apply _ n i
  have hw1 : (fun (i : Fin 3072) (j : Fin 1024) => w1A (VA m) c (ix2 i j))
      = fun i j => (m ((c.tc : Thread nD τ).loc main_arg2) : FVec Ideal S3072x1024 .f32) (ix2 i j) := by
    funext i j
    show (Gen.V1 m c (Proc.devRef .tc main_v18) : FVec Ideal S3072x1024 .bf16) (ix2 i j) = _
    rw [V1_v18]; rfl
  have hb1 : (fun (j : Fin 1024) => b1A (VA m) c (ix2 (0 : Fin 1) j))
      = fun j => (m ((c.tc : Thread nD τ).loc main_arg3) : FVec Ideal S1024 .f32) (ix1 j) := by
    funext j
    show (Gen.V1 m c (Proc.devRef .tc main_v21) : FVec Ideal S1x1024 .f32) (ix2 (0 : Fin 1) j) = _
    rw [V1_v21]; exact bias_row_apply _ j
  have hw2 : (fun (j : Fin 1024) (o : Fin 1024) => w2A (VA m) c (ix2 j o))
      = fun j o => (m ((c.tc : Thread nD τ).loc main_arg4) : FVec Ideal S1024x1024 .f32) (ix2 j o) := by
    funext j o
    show (Gen.V1 m c (Proc.devRef .tc main_v19) : FVec Ideal S1024x1024 .bf16) (ix2 j o) = _
    rw [V1_v19]; rfl
  have hb2 : (fun (o : Fin 1024) => b2A (VA m) c (ix2 (0 : Fin 1) o))
      = fun o => (m ((c.tc : Thread nD τ).loc main_arg5) : FVec Ideal S1024 .f32) (ix1 o) := by
    funext o
    show (Gen.V1 m c (Proc.devRef .tc main_v22) : FVec Ideal S1x1024 .f32) (ix2 (0 : Fin 1) o) = _
    rw [V1_v22]; exact bias_row_apply _ o
  rw [hx, hw1, hb1, hw2, hb2]

/-- The kernel program's result, entry by entry: the specification's logit of the arguments at row 2·s + b. -/
theorem result_apply (c : Dev nD) (s : Fin 2048) (b : Fin 2) (v : Fin 50257) :
    (Gen.V9 m (outs m) c (Proc.devRef .tc main_v29) : FVec Ideal S2048x2x50257 .f32) (ix3 s b v)
      = Cert.KGram.logit (Cert.KGram.rowsOf (emb4 m c))
          (fun i j => (m ((c.tc : Thread nD τ).loc main_arg2) : FVec Ideal S3072x1024 .f32) (ix2 i j))
          (fun j => (m ((c.tc : Thread nD τ).loc main_arg3) : FVec Ideal S1024 .f32) (ix1 j))
          (fun j o => (m ((c.tc : Thread nD τ).loc main_arg4) : FVec Ideal S1024x1024 .f32) (ix2 j o))
          (fun o => (m ((c.tc : Thread nD τ).loc main_arg5) : FVec Ideal S1024 .f32) (ix1 o))
          (fun k v => (m ((c.tc : Thread nD τ).loc main_arg6) : FVec Ideal S1024x50257 .f32) (ix2 k v))
          (fun v => (m ((c.tc : Thread nD τ).loc main_arg7) : FVec Ideal S50257 .f32) (ix1 v)) (Cert.KGram.rowOf s b) v := by
  rw [V9_v29, unpad_apply]
  show ((dat1 (F := Ideal) (VB m) c).arrAt 3 cfg1.N : Vec Ideal S4096x51200 .f32) (ix2 _ _) = _
  rw [finalB]
  unfold Cert.KGram.logit Cert.KGram.proj
  have hW : ∀ k : Fin 1024, woB (VB m) c (ix2 k (⟨v.val, by have := v.isLt; omega⟩ : Fin 51200))
      = (m ((c.tc : Thread nD τ).loc main_arg6) : FVec Ideal S1024x50257 .f32) (ix2 k v) := fun k => by
    show (VB m c main_v24 : FVec Ideal S1024x51200 .bf16) (ix2 k _) = _
    rw [VB_v24, padW_apply]; rfl
  have hb : boB (VB m) c (ix2 (0 : Fin 1) (⟨v.val, by have := v.isLt; omega⟩ : Fin 51200))
      = (m ((c.tc : Thread nD τ).loc main_arg7) : FVec Ideal S50257 .f32) (ix1 v) := by
    show (VB m c main_v26 : FVec Ideal S1x51200 .f32) (ix2 (0 : Fin 1) _) = _
    rw [VB_v26, padB_apply]
  simp only [hW, hb]
  exact congrArg (fun f => Cert.KGram.dense f _ _) (funext fun k => hidden_apply m c _ k)

end Cert.KernelIdeal.Hand

/-! ## The claims -/

namespace Cert.Proof.Claims

open Idealize.ShloMosaic Idealize.ShloMosaic.TcCoe Idealize.SL.Sem Idealize.ShloMosaic.ValueIdx

/-- At the ideal instance the kernel program ends with its result at the specification's logits (its run, the result
    read entry by entry) and so does the reference from agreeing arguments (its generated run, read entry by entry):
    equal results. -/
theorem algebraic : Cert.algebraic_KernelIdeal_ReferenceIdeal := by
  intro m ρ m' ρ' _ hagree
  refine ⟨fun c => Cert.KernelIdeal.Gen.V9 m (Cert.KernelIdeal.Hand.outs m) c (Proc.devRef .tc Cert.KernelIdeal.main_v29), ?_, ?_⟩
  · refine (θ_run Cert.KernelIdeal.defs _ _).mono (fun r h c => ?_) (Cert.KernelIdeal.Hand.run (F := Ideal) m ρ)
    exact ⟨h c _ (Cert.KernelIdeal.Hand.mem_uc Cert.KernelIdeal.main_v29 (by decide)),
      (h c _ (Cert.KernelIdeal.Hand.mem_uc Cert.KernelIdeal.main_arg0 (by decide))).trans (Cert.KernelIdeal.Gen.V9_main_arg0 m _ c),
      (h c _ (Cert.KernelIdeal.Hand.mem_uc Cert.KernelIdeal.main_arg1 (by decide))).trans (Cert.KernelIdeal.Gen.V9_main_arg1 m _ c),
      (h c _ (Cert.KernelIdeal.Hand.mem_uc Cert.KernelIdeal.main_arg2 (by decide))).trans (Cert.KernelIdeal.Gen.V9_main_arg2 m _ c),
      (h c _ (Cert.KernelIdeal.Hand.mem_uc Cert.KernelIdeal.main_arg3 (by decide))).trans (Cert.KernelIdeal.Gen.V9_main_arg3 m _ c),
      (h c _ (Cert.KernelIdeal.Hand.mem_uc Cert.KernelIdeal.main_arg4 (by decide))).trans (Cert.KernelIdeal.Gen.V9_main_arg4 m _ c),
      (h c _ (Cert.KernelIdeal.Hand.mem_uc Cert.KernelIdeal.main_arg5 (by decide))).trans (Cert.KernelIdeal.Gen.V9_main_arg5 m _ c),
      (h c _ (Cert.KernelIdeal.Hand.mem_uc Cert.KernelIdeal.main_arg6 (by decide))).trans (Cert.KernelIdeal.Gen.V9_main_arg6 m _ c),
      (h c _ (Cert.KernelIdeal.Hand.mem_uc Cert.KernelIdeal.main_arg7 (by decide))).trans (Cert.KernelIdeal.Gen.V9_main_arg7 m _ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq]
    obtain ⟨h0, h1, h2, h3, h4, h5, h6, h7⟩ := hagree c
    rw [h0, h1, h2, h3, h4, h5, h6, h7]
    funext i
    obtain ⟨s, b, v, rfl⟩ : ∃ (s : Fin 2048) (b : Fin 2) (v : Fin 50257), i = ix3 s b v := ⟨i 0, i 1, i 2, eq_ix3 i⟩
    exact (Cert.ReferenceIdeal.RefValue.ref_apply _ _ _ _ _ _ _ _ s b v).trans (Cert.KernelIdeal.Hand.result_apply m c s b v).symm

end Cert.Proof.Claims

end
-- ==== Proof.lean ====
/-
  The certificate: the Pallas k-gram MLP (an embedding gather on the host, two kernel regions — the two hidden layers
  with x·σ(x), then the output projection over a zero-padded vocabulary axis — and a final slice) against its jnp
  reference, over the extended reals.

  Frames. Each kernel program's run is assembled from one record per kernel region (the region's body runs to the end
  and leaves its inputs alone; the pipeline's arrays are split out of the device's buffers and put back) inside the
  conditional frame over the host stretches; the reference's frame is its run with the result dropped.
  The idealization rewrote nothing, so that claim is trivial.
  Value. Both programs end at the specification's logits, entry by entry: sums of products in the same order on both
  sides, the padding columns sliced away, the flattening of (position, batch entry) to a row number the same on both sides.
-/
import proofs.«109752_j56925496541497_1_alg».proof.Defs
import proofs.«109752_j56925496541497_1_alg».proof.Proof.Gen.Kernel
import proofs.«109752_j56925496541497_1_alg».proof.Proof.Gen.KernelIdeal
import proofs.«109752_j56925496541497_1_alg».proof.Proof.Gen.ReferenceIdeal
import proofs.«109752_j56925496541497_1_alg».proof.Proof.Gen.Pre_finite_inputs
import proofs.«109752_j56925496541497_1_alg».proof.Proof.Gen.ReferenceIdeal.Run
import proofs.«109752_j56925496541497_1_alg».proof.Proof.Gen.ReferenceIdeal.Read
import proofs.«109752_j56925496541497_1_alg».proof.Proof.K.Regs
import proofs.«109752_j56925496541497_1_alg».proof.Proof.KI.Regs
import proofs.«109752_j56925496541497_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  Cert.Proof.Claims.algebraic⟩

end Cert.Proof

end
